-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x40960 : S_.BroadcastsInDim S4096x40960 (![] : Fin 0 → Fin S4096x40960.rank)
  reducesTo_S4096x40960_S_d0_1 : S4096x40960.ReducesTo [0, 1] S_
  h_S_ : 0 < S_.numel
  bcast_S_S256x40960 : S_.BroadcastsInDim S256x40960 (![] : Fin 0 → Fin S256x40960.rank)
  reducesTo_S256x40960_S_d0_1 : S256x40960.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S1x32 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S32x512 .f32) (main_arg5 : FVec F S32 .f32) (main_arg6 : FVec F S32x32 .f32) (main_arg7 : FVec F S32 .f32) (main_arg8 : FVec F S1x32 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x40960 .f32) (main_arg1 : FVec F S4096x40960 .f32) (main_arg2 : FVec F S256x40960 .f32) (main_arg3 : FVec F S256 .f32) (main_arg4 : FVec F S32x512 .f32) (main_arg5 : FVec F S32 .f32) (main_arg6 : FVec F S32x32 .f32) (main_arg7 : FVec F S32 .f32) (main_arg8 : FVec F S1x32 .f32) (main_arg9 : FVec F S1 .f32) : IVec S_ 1 :=
  let main_v0 : FVec F S4096x40960 .f32 := Host.absf main_arg0
  let main_cst : FVec F S_ .f32 := constant S_ .f32 0x7F800000#32
  let main_v1 : FVec F S4096x40960 .f32 := broadcastInDim S4096x40960 ![] bcast_S_S4096x40960 main_cst
  let main_v2 : IVec S4096x40960 1 := cmpf .olt main_v0 main_v1
  let main_c : IVec S_ 1 := constantI S_ 1 1#1
  let main_v3 : IVec S_ 1 := (fun x v => Host.reduce IntOp.andi x v reducesTo_S4096x40960_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S256x40960 .f32 := Host.absf main_arg2
  let main_cst_2 : FVec F S_ .f32 := constant S_ .f32 0x7F800000#32
  let main_v10 : FVec F S256x40960 .f32 := broadcastInDim S256x40960 ![] bcast_S_S256x40960 main_cst_2
  let main_v11 : IVec S256x40960 1 := cmpf .olt main_v9 main_v10
  let main_c_3 : IVec S_ 1 := constantI S_ 1 1#1
  let main_v12 : IVec S_ 1 := (fun x v => Host.reduce IntOp.andi x v reducesTo_S256x40960_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x256 : Shape := ⟨2, ![1, 256]⟩
abbrev S32x256 : Shape := ⟨2, ![32, 256]⟩
abbrev S1x1 : Shape := ⟨2, ![1, 1]⟩
abbrev S4096x1 : Shape := ⟨2, ![4096, 1]⟩
abbrev S512x1024 : Shape := ⟨2, ![512, 1024]⟩
abbrev S512x1 : Shape := ⟨2, ![512, 1]⟩
abbrev S512x256 : Shape := ⟨2, ![512, 256]⟩
abbrev S256x1024 : Shape := ⟨2, ![256, 1024]⟩
abbrev S1024x256 : Shape := ⟨2, ![1024, 256]⟩
abbrev S256x32 : Shape := ⟨2, ![256, 32]⟩
abbrev S512x32 : Shape := ⟨2, ![512, 32]⟩
abbrev S32x1 : Shape := ⟨2, ![32, 1]⟩

abbrev nBuf : Space → Nat
  | .hbm => 22
  | .vmem => 17
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S256x40960, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S256x40960, .bf16⟩
  | .hbm, ⟨11, _⟩ => ⟨S1x256, .f32⟩
  | .hbm, ⟨12, _⟩ => ⟨S32x256, .f32⟩
  | .hbm, ⟨13, _⟩ => ⟨S32x256, .bf16⟩
  | .hbm, ⟨14, _⟩ => ⟨S32x256, .f32⟩
  | .hbm, ⟨15, _⟩ => ⟨S32x256, .bf16⟩
  | .hbm, ⟨16, _⟩ => ⟨S1x32, .f32⟩
  | .hbm, ⟨17, _⟩ => ⟨S32x32, .bf16⟩
  | .hbm, ⟨18, _⟩ => ⟨S1x32, .f32⟩
  | .hbm, ⟨19, _⟩ => ⟨S1x32, .bf16⟩
  | .hbm, ⟨20, _⟩ => ⟨S1x1, .f32⟩
  | .hbm, ⟨21, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S256x40960, .bf16⟩
  | .local _ .vmem, ⟨5, _⟩ => ⟨S1x256, .f32⟩
  | .local _ .vmem, ⟨6, _⟩ => ⟨S32x256, .bf16⟩
  | .local _ .vmem, ⟨7, _⟩ => ⟨S32x256, .bf16⟩
  | .local _ .vmem, ⟨8, _⟩ => ⟨S1x32, .f32⟩
  | .local _ .vmem, ⟨9, _⟩ => ⟨S32x32, .bf16⟩
  | .local _ .vmem, ⟨10, _⟩ => ⟨S1x32, .f32⟩
  | .local _ .vmem, ⟨11, _⟩ => ⟨S1x32, .bf16⟩
  | .local _ .vmem, ⟨12, _⟩ => ⟨S1x1, .f32⟩
  | .local _ .vmem, ⟨13, _⟩ => ⟨S512x1, .f32⟩
  | .local _ .vmem, ⟨14, _⟩ => ⟨S512x1, .f32⟩
  | .local _ .vmem, ⟨15, _⟩ => ⟨S512x256, .f32⟩
  | .local _ .vmem, ⟨16, _⟩ => ⟨S512x256, .f32⟩
  | _, _ => ⟨S4096x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![8, 40], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c39_i32 : BitVec 32 := 39#32
  let v26 : BitVec 1 := Scalar.cmpi .eq arg1 c39_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x40960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  bitsLt_bf16_f32 : FTy.bits .bf16 < FTy.bits .f32
  shapeCasts_S256_S1x256 : S256.ShapeCasts S1x256
  slices_S32x512_S32x256_0_0 : S32x512.Slices ![0, 0] S32x256
  slices_S32x512_S32x256_0_256 : S32x512.Slices ![0, 256] S32x256
  shapeCasts_S32_S1x32 : S32.ShapeCasts S1x32
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S256x1024 : 0 < S256x1024.numel
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  transposes_S32x256_p1_0_S256x32 : S32x256.Transposes [1, 0] S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  transposes_S32x32_p1_0_S32x32 : S32x32.Transposes [1, 0] S32x32
  transposes_S1x32_p1_0_S32x1 : S1x32.Transposes [1, 0] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x1024_S1024x256_S512x256_1_0_0_1_n_n_wf : DotDims.WF S512x1024 S1024x256 S512x256 [1] [0] [0] [1] [] []
  dot_S512x256_S256x32_S512x32_1_0_0_1_n_n_wf : DotDims.WF S512x256 S256x32 S512x32 [1] [0] [0] [1] [] []
  dot_S512x32_S32x32_S512x32_1_0_0_1_n_n_wf : DotDims.WF S512x32 S32x32 S512x32 [1] [0] [0] [1] [] []
  dot_S512x32_S32x1_S512x1_1_0_0_1_n_n_wf : DotDims.WF S512x32 S32x1 S512x1 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S256x1024.size a ≤ S256x40960.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x40960.size a
  hwx0_0 : ∀ i : grid0.Coords, EltTy.bits .f32 = 32 ∨ (Rect.block (s := S4096x40960) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x40960.size a
  hwx0_1 : ∀ i : grid0.Coords, EltTy.bits .f32 = 32 ∨ (Rect.block (s := S4096x40960) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x40960.size a ≤ S256x40960.size a
  hwx0_2 : ∀ i : grid0.Coords, EltTy.bits .bf16 = 32 ∨ (Rect.block (s := S256x40960) S256x40960.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x256.size a
  hwx0_4 : ∀ i : grid0.Coords, EltTy.bits .bf16 = 32 ∨ (Rect.block (s := S32x256) S32x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x256.size a
  hwx0_5 : ∀ i : grid0.Coords, EltTy.bits .bf16 = 32 ∨ (Rect.block (s := S32x256) S32x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .bf16 = 32 ∨ (Rect.block (s := S32x32) S32x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .bf16 = 32 ∨ (Rect.block (s := S1x32) S1x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S4096x1.size a
  hwx0_11 : ∀ i : grid0.Coords, EltTy.bits .f32 = 32 ∨ (Rect.block (s := S4096x1) S512x1.size (cc0_transform_11 i) (hinb0_11 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x40960.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S32x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S512x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S40960x256 : Shape := ⟨2, ![40960, 256]⟩
abbrev S4096x256 : Shape := ⟨2, ![4096, 256]⟩
abbrev S1x256 : Shape := ⟨2, ![1, 256]⟩
abbrev S_ : Shape := ⟨0, ![]⟩
abbrev S4096x512 : Shape := ⟨2, ![4096, 512]⟩
abbrev S512x32 : Shape := ⟨2, ![512, 32]⟩
abbrev S4096x32 : Shape := ⟨2, ![4096, 32]⟩
abbrev S32x1 : Shape := ⟨2, ![32, 1]⟩
abbrev S4096x1 : Shape := ⟨2, ![4096, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S256x40960, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S40960x256, .f32⟩
  | .hbm, ⟨11, _⟩ => ⟨S4096x256, .f32⟩
  | .hbm, ⟨12, _⟩ => ⟨S1x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x256, .f32⟩
  | .hbm, ⟨19, _⟩ => ⟨S4096x256, .f32⟩
  | .hbm, ⟨20, _⟩ => ⟨S_, .f32⟩
  | .hbm, ⟨21, _⟩ => ⟨S4096x256, .f32⟩
  | .hbm, ⟨22, _⟩ => ⟨S4096x256, .f32⟩
  | .hbm, ⟨23, _⟩ => ⟨S40960x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S4096x512, .f32⟩
  | .hbm, ⟨37, _⟩ => ⟨S512x32, .f32⟩
  | .hbm, ⟨38, _⟩ => ⟨S4096x32, .f32⟩
  | .hbm, ⟨39, _⟩ => ⟨S1x32, .f32⟩
  | .hbm, ⟨40, _⟩ => ⟨S4096x32, .f32⟩
  | .hbm, ⟨41, _⟩ => ⟨S4096x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x32, .f32⟩
  | .hbm, ⟨46, _⟩ => ⟨S4096x32, .f32⟩
  | .hbm, ⟨47, _⟩ => ⟨S_, .f32⟩
  | .hbm, ⟨48, _⟩ => ⟨S4096x32, .f32⟩
  | .hbm, ⟨49, _⟩ => ⟨S4096x32, .f32⟩
  | .hbm, ⟨50, _⟩ => ⟨S32x32, .f32⟩
  | .hbm, ⟨51, _⟩ => ⟨S4096x32, .f32⟩
  | .hbm, ⟨52, _⟩ => ⟨S1x32, .f32⟩
  | .hbm, ⟨53, _⟩ => ⟨S4096x32, .f32⟩
  | .hbm, ⟨54, _⟩ => ⟨S4096x32, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096x32, .f32⟩
  | .hbm, ⟨59, _⟩ => ⟨S4096x32, .f32⟩
  | .hbm, ⟨60, _⟩ => ⟨S_, .f32⟩
  | .hbm, ⟨61, _⟩ => ⟨S4096x32, .f32⟩
  | .hbm, ⟨62, _⟩ => ⟨S4096x32, .f32⟩
  | .hbm, ⟨63, _⟩ => ⟨S32x1, .f32⟩
  | .hbm, ⟨64, _⟩ => ⟨S4096x1, .f32⟩
  | .hbm, ⟨65, _⟩ => ⟨S1x1, .f32⟩
  | .hbm, ⟨66, _⟩ => ⟨S4096x1, .f32⟩
  | .hbm, ⟨67, _⟩ => ⟨S4096x1, .f32⟩
  | _, _ => ⟨S4096x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_cst_4 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_5 : Ref sig .tc := ⟨.hbm, 55, rfl⟩
abbrev main_cst_6 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩

abbrev nD : Nat := 1
abbrev τ : Topo := Topo.v7x

variable {F : FTy → Type} [FloatOps F]

class Facts₀ : Prop where
  transposes_S256x40960_S40960x256_1_0 : S256x40960.Transposes [1, 0] S40960x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  concatenates_S4096x256_S4096x256_S4096x512_d1 : Shape.Concatenates [S4096x256, S4096x256] S4096x512 1
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x40960_S40960x256_S4096x256_1_0_0_1_n_n_wf : DotDims.WF S4096x40960 S40960x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x40960_S40960x256_S4096x256_1_0_0_1_n_n : DotDims S4096x40960 S40960x256 S4096x256 where
  lhsContracting := [1]
  rhsContracting := [0]
  lhsNonContracting := [0]
  rhsNonContracting := [1]
  lhsBatch := []
  rhsBatch := []
  wf := dot_S4096x40960_S40960x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Pieces.lean ====
/-
  What each case of the kernel body leaves in its buffers, as the body's own arithmetic.

  The body runs in one of three cases. At the first step of a batch tile's sweep over the feature columns it stores
  zero into both accumulators and then adds the step's product to the zero it reads back; at a middle step it adds
  the step's product to what the step before left; at the last step it does the same and then computes the network's
  tail from the updated accumulators and stores the scores. Each buffer is stored whole, so what a case leaves in a
  buffer is the value of its last store there, and a load of a whole buffer reads its contents. The one partial load
  is the slice of the feature-transform matrix: the 1024 columns that belong to the step, read through a rectangle
  whose column offset is 1024 times the step number.
-/
import proofs.«129051_j46497315946985_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offsets of a whole-buffer rectangle, spelt as a literal. -/
theorem hz : (![0, 0] : Fin 2 → Nat) = fun _ => 0 := funext fun a => by fin_cases a <;> rfl

theorem sout_A_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S256x40960 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : cond0_0 i) (hc1 : ¬cond0_1 i) (x0 : Vec F S512x1024 .f32) (x1 : Vec F S512x1024 .f32) (x2 : Vec F S256x40960 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay4 (View.ld x2 (Rect.unit (k0_off1 i) S256x1024.size (k0_off1_inb i))) x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S512x256) hz, View.readCov_unit_zero (S := S512x256) _ hz]
  simp only [View.readAt_eq_ld, harg2.read_unread, harg3.read_unread, harg4.read_unread, View.ld_unit_zero (S := S512x1024) hz]

theorem sout_A_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S256x40960 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : cond0_0 i) (hc1 : ¬cond0_1 i) (x0 : Vec F S512x1024 .f32) (x1 : Vec F S512x1024 .f32) (x2 : Vec F S256x40960 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay5 (View.ld x2 (Rect.unit (k0_off1 i) S256x1024.size (k0_off1_inb i))) x1 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S512x256) hz, View.readCov_unit_zero (S := S512x256) _ hz]
  simp only [View.readAt_eq_ld, harg2.read_unread, harg3.read_unread, harg4.read_unread, View.ld_unit_zero (S := S512x1024) hz]

theorem sout_B_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S256x40960 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : ¬cond0_0 i) (hc1 : ¬cond0_1 i) (x0 : Vec F S512x1024 .f32) (x1 : Vec F S512x1024 .f32) (x2 : Vec F S256x40960 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) (xs0 xs1 : Vec F S512x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay4 (View.ld x2 (Rect.unit (k0_off1 i) S256x1024.size (k0_off1_inb i))) x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  sl_unfold_words
  rw [View.canon_unit_zero hz]
  simp only [View.readAt_eq_ld, harg2.read_unread, harg3.read_unread, harg4.read_unread, harg14.read_unread, harg15.read_unread, View.ld_unit_zero (S := S512x1024) hz, View.ld_unit_zero (S := S512x256) hz]

theorem sout_B_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S256x40960 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : ¬cond0_0 i) (hc1 : ¬cond0_1 i) (x0 : Vec F S512x1024 .f32) (x1 : Vec F S512x1024 .f32) (x2 : Vec F S256x40960 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) (xs0 xs1 : Vec F S512x256 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay5 (View.ld x2 (Rect.unit (k0_off1 i) S256x1024.size (k0_off1_inb i))) x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  sl_unfold_words
  rw [View.canon_unit_zero hz]
  simp only [View.readAt_eq_ld, harg2.read_unread, harg3.read_unread, harg4.read_unread, harg14.read_unread, harg15.read_unread, View.ld_unit_zero (S := S512x1024) hz, View.ld_unit_zero (S := S512x256) hz]

theorem sout_C_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S256x40960 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : ¬cond0_0 i) (hc1 : cond0_1 i) (x0 : Vec F S512x1024 .f32) (x1 : Vec F S512x1024 .f32) (x2 : Vec F S256x40960 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) (xs0 xs1 : Vec F S512x256 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay4 (View.ld x2 (Rect.unit (k0_off1 i) S256x1024.size (k0_off1_inb i))) x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readAt_eq_ld, harg2.read_unread, harg3.read_unread, harg4.read_unread, harg14.read_unread, harg15.read_unread, View.ld_unit_zero (S := S512x1024) hz, View.ld_unit_zero (S := S512x256) hz]

theorem sout_C_1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S256x40960 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : ¬cond0_0 i) (hc1 : cond0_1 i) (x0 : Vec F S512x1024 .f32) (x1 : Vec F S512x1024 .f32) (x2 : Vec F S256x40960 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) (xs0 xs1 : Vec F S512x256 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay5 (View.ld x2 (Rect.unit (k0_off1 i) S256x1024.size (k0_off1_inb i))) x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readAt_eq_ld, harg2.read_unread, harg3.read_unread, harg4.read_unread, harg14.read_unread, harg15.read_unread, View.ld_unit_zero (S := S512x1024) hz, View.ld_unit_zero (S := S512x256) hz]

theorem out_C_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S256x40960 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : ¬cond0_0 i) (hc1 : cond0_1 i) (x0 : Vec F S512x1024 .f32) (x1 : Vec F S512x1024 .f32) (x2 : Vec F S256x40960 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) (xs0 xs1 : Vec F S512x256 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay6 (k0_pay7 (k0_pay4 (View.ld x2 (Rect.unit (k0_off1 i) S256x1024.size (k0_off1_inb i))) x0 xs0) x3 (k0_pay5 (View.ld x2 (Rect.unit (k0_off1 i) S256x1024.size (k0_off1_inb i))) x1 xs1) x3 x4 x5 x6) x7 x8 x9 x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readCov_unit_zero (S := S512x256) _ hz, View.readAt_eq_ld, harg2.read_unread, harg3.read_unread, harg4.read_unread,
    harg5.read_unread, harg6.read_unread, harg7.read_unread, harg8.read_unread, harg9.read_unread, harg10.read_unread,
    harg11.read_unread, harg12.read_unread, harg14.read_unread, harg15.read_unread, View.ld_unit_zero (S := S512x1024) hz,
    View.ld_unit_zero (S := S512x256) hz, View.ld_unit_zero (S := S1x256) hz, View.ld_unit_zero (S := S32x256) hz,
    View.ld_unit_zero (S := S1x32) hz, View.ld_unit_zero (S := S32x32) hz, View.ld_unit_zero (S := S1x1) hz]

end Cert.KernelIdeal.Pieces

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«129051_j46497315946985_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«129051_j46497315946985_1_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.LibBlockedRowsDot.lean ====
/-
  A product with the rows of a matrix, `x · wᵀ`, taken a block of columns at a time.

  For `x : [a, K]` and `w : [N, K]`, entry `(r, q)` of `x · wᵀ` is the sum over the `K` columns of
  `x (r, k) * w (q, k)` (`prodRowT`). When `K = T * B`, cut the columns into `T` consecutive blocks of `B`:

  * `blkCol kt j` is column `j` of block `kt` as a column of the whole, number `j + B * kt`;
  * `sum_eq_sum_blocks`: a sum over all columns is the sum over the blocks of the sums inside each block, in any
    commutative monoid, so on the extended reals without any finiteness;
  * `blockDot kt` is block `kt`'s part of the entry, `prodRowT_eq_sum_blockDot` the entry as the sum of the parts,
    and `prodRowT_eq_blockDot` recognises a part in the product of two `B`-column matrices that are slices of `x`
    and `w` (of any heights: only one row of each is read);
  * `partialDot k` is the sum of the parts of blocks `0 … k`: what an accumulator that starts from the first block's
    part (`partialDot_zero`) and grows by one block per step (`partialDot_succ`) holds after step `k`, and after the
    last block the whole entry (`partialDot_last`).

  All are generic in the extents.
-/
import Mathlib.Algebra.BigOperators.Fin
import Mathlib.Data.Fintype.BigOperators
import Mathlib.Logic.Equiv.Fin.Basic
import proofs.«129051_j46497315946985_1_alg».proof.Proof.LibRowsDot

noncomputable section

namespace Cert.BlockedRows

open Idealize.ShloMosaic Idealize.ShloMosaic.ValueIdx
open Cert.DenseLayer (Mat)
open Cert.DenseRows (prodRowT)

section Blocks

variable {T B K : ℕ} (hK : T * B = K)

/-- Column `j` of block `kt`, as a column of the whole: number `j + B * kt`. -/
def blkCol (kt : Fin T) (j : Fin B) : Fin K := Fin.cast hK (finProdFinEquiv (kt, j))

theorem blkCol_val (kt : Fin T) (j : Fin B) : (blkCol hK kt j).val = j.val + B * kt.val := rfl

/-- A sum over all the columns is the sum over the blocks of the sums inside each block. -/
theorem sum_eq_sum_blocks {M : Type} [AddCommMonoid M] (f : Fin K → M) :
    ∑ i : Fin K, f i = ∑ kt : Fin T, ∑ j : Fin B, f (blkCol hK kt j) := by
  subst hK
  have h := (Equiv.sum_comp (finProdFinEquiv (m := T) (n := B)) f).symm
  rw [h, Fintype.sum_prod_type]
  rfl

variable {a N : ℕ}

/-- The part of entry `(r, q)` of `x · wᵀ` that block `kt` of the columns contributes. -/
def blockDot (x : Mat a K) (w : Mat N K) (r : Fin a) (q : Fin N) (kt : Fin T) : EReal :=
  ∑ j : Fin B, x (ix2 r (blkCol hK kt j)) * w (ix2 q (blkCol hK kt j))

/-- The whole contraction is the sum of the blocks' parts. -/
theorem prodRowT_eq_sum_blockDot (x : Mat a K) (w : Mat N K) (r : Fin a) (q : Fin N) :
    prodRowT x w r q = ∑ kt : Fin T, blockDot hK x w r q kt :=
  sum_eq_sum_blocks hK fun k => x (ix2 r k) * w (ix2 q k)

/-- A product of two `B`-column matrices whose rows `p` and `s` are block `kt` of rows `r` of `x` and `q` of `w`
    is that block's part. -/
theorem prodRowT_eq_blockDot {a' N' : ℕ} (xb : Mat a' B) (wb : Mat N' B) (x : Mat a K) (w : Mat N K)
    (p : Fin a') (s : Fin N') (r : Fin a) (q : Fin N) (kt : Fin T)
    (hx : ∀ j, xb (ix2 p j) = x (ix2 r (blkCol hK kt j))) (hw : ∀ j, wb (ix2 s j) = w (ix2 q (blkCol hK kt j))) :
    prodRowT xb wb p s = blockDot hK x w r q kt :=
  Finset.sum_congr rfl fun j _ => by rw [hx j, hw j]

/-- Block number `kt`'s part when `kt` is a block, zero past the last block. -/
def blockDotN (x : Mat a K) (w : Mat N K) (r : Fin a) (q : Fin N) (kt : ℕ) : EReal :=
  if h : kt < T then blockDot hK x w r q ⟨kt, h⟩ else 0

theorem blockDotN_of_lt (x : Mat a K) (w : Mat N K) (r : Fin a) (q : Fin N) (kt : ℕ) (h : kt < T) :
    blockDotN hK x w r q kt = blockDot hK x w r q ⟨kt, h⟩ := dif_pos h

/-- The sum of the parts of blocks `0 … k`: what an accumulator holds after step `k`. -/
def partialDot (x : Mat a K) (w : Mat N K) (r : Fin a) (q : Fin N) (k : ℕ) : EReal :=
  ∑ kt ∈ Finset.range (k + 1), blockDotN hK x w r q kt

theorem partialDot_zero (x : Mat a K) (w : Mat N K) (r : Fin a) (q : Fin N) (h : 0 < T) :
    partialDot hK x w r q 0 = blockDot hK x w r q ⟨0, h⟩ := by
  unfold partialDot
  rw [Finset.sum_range_one, blockDotN_of_lt hK x w r q 0 h]

theorem partialDot_succ (x : Mat a K) (w : Mat N K) (r : Fin a) (q : Fin N) (k : ℕ) (h : k + 1 < T) :
    partialDot hK x w r q (k + 1) = partialDot hK x w r q k + blockDot hK x w r q ⟨k + 1, h⟩ := by
  unfold partialDot
  rw [Finset.sum_range_succ _ (k + 1), blockDotN_of_lt hK x w r q (k + 1) h]

/-- After the last block the accumulator holds the whole contraction. -/
theorem partialDot_last (x : Mat a K) (w : Mat N K) (r : Fin a) (q : Fin N) (k : ℕ) (h : k + 1 = T) :
    partialDot hK x w r q k = prodRowT x w r q := by
  unfold partialDot
  rw [prodRowT_eq_sum_blockDot hK, h, Finset.sum_range]
  exact Finset.sum_congr rfl fun kt _ => blockDotN_of_lt hK x w r q kt.val kt.isLt

end Blocks

end Cert.BlockedRows

end
-- ==== Proof.LibTransposedDot.lean ====
/-
  Products with a transposed matrix, halves of a matrix's columns, and a sum over two halves.

  A vector program that is handed a weight matrix `w : [N, K]` stored as `[out, in]` transposes it and multiplies:
  `x · wᵀ`. Read at an index at the ideal values the product into a zero accumulator is the sum over `k` of
  `x (r, k) * w (q, k)`, the product with the ROWS of `w` (`prodRowT`):

  * `matmul_transposed_apply` — a plain matrix product into the zero accumulator whose right operand is a
    transposed `[N, K]` matrix is `prodRowT` with that matrix, entry by entry, whatever the float formats;
  * `leftHalf` / `rightHalf` — the first and the last `h` columns of an `[n, h + h]` matrix, read at an index
    (`leftHalf_apply`, `rightHalf_apply`): what a program gets when it cuts a weight matrix into two halves;
  * `sum_two_halves` — a sum over `h + h` columns is the sum over the first `h` plus the sum over the last `h`, in
    any commutative monoid, so on the extended reals without any finiteness: how a product with two matrices joined
    side by side meets the sum of two products with the halves;
  * `rowIx` — the row number of an index of an `[a, b]` array, as a number below `a`.

  All are generic in the extents.
-/
import Mathlib.Algebra.BigOperators.Fin
import Idealize.ShloMosaic.Lib.ValueLayout
import proofs.«129051_j46497315946985_1_alg».proof.Proof.LibRowsDot

noncomputable section

namespace Cert.DenseRows

open Idealize.ShloMosaic Idealize.ShloMosaic.ValueIdx
open Cert.DenseLayer (Mat prodRow PlainDot matmul_zero_apply)

/-- A product into the zero accumulator with a transposed matrix is the product with that matrix's rows. -/
theorem matmul_transposed_apply {a K N : ℕ} {φ₁ φ₂ : FTy} {d : DotDims ⟨2, ![a, K]⟩ ⟨2, ![K, N]⟩ ⟨2, ![a, N]⟩}
    (hd : PlainDot d) (x : FVec Ideal ⟨2, ![a, K]⟩ φ₁) (w : FVec Ideal ⟨2, ![N, K]⟩ φ₂)
    (ht : (⟨2, ![N, K]⟩ : Shape).Transposes [1, 0] ⟨2, ![K, N]⟩) (p : Fin a) (q : Fin N) :
    FloatOps.matmul d none x (transpose ⟨2, ![K, N]⟩ [1, 0] w ht) (constant ⟨2, ![a, N]⟩ .f32 0x00000000#32) (ix2 p q)
      = prodRowT x w p q :=
  (matmul_zero_apply hd none x _ (ix2 p q)).trans
    (prodRow_transposed x _ w (fun k q' => transpose_ix2_apply w ht k q') p q)

/-- The row number of an index of an `[a, b]` array. -/
def rowIx {a b : ℕ} (i : (⟨2, ![a, b]⟩ : Shape).Idx) : Fin a := ⟨(i 0).val, (i 0).isLt⟩

theorem rowIx_ix2 {a b : ℕ} (r : Fin a) (u : Fin b) : rowIx (ix2 r u) = r := rfl

/-- The first `h` columns of an `[n, h + h]` matrix. -/
def leftHalf {n h hh : ℕ} (e : h + h = hh) (w : Mat n hh) : Mat n h := fun i =>
  w (ix2 (show Fin n from i 0) ⟨(show Fin h from i 1).val, by have := (show Fin h from i 1).isLt; omega⟩)

/-- The last `h` columns of an `[n, h + h]` matrix. -/
def rightHalf {n h hh : ℕ} (e : h + h = hh) (w : Mat n hh) : Mat n h := fun i =>
  w (ix2 (show Fin n from i 0) ⟨h + (show Fin h from i 1).val, by have := (show Fin h from i 1).isLt; omega⟩)

theorem leftHalf_apply {n h hh : ℕ} (e : h + h = hh) (w : Mat n hh) (i : Fin n) (q : Fin h) :
    leftHalf e w (ix2 i q) = w (ix2 i ⟨q.val, by have := q.isLt; omega⟩) := rfl

theorem rightHalf_apply {n h hh : ℕ} (e : h + h = hh) (w : Mat n hh) (i : Fin n) (q : Fin h) :
    rightHalf e w (ix2 i q) = w (ix2 i ⟨h + q.val, by have := q.isLt; omega⟩) := rfl

/-- A sum over `n + n` columns is the sum over the first `n` of them plus the sum over the last `n`. -/
theorem sum_two_halves {M : Type} [AddCommMonoid M] {n N : ℕ} (hN : n + n = N) (h : Fin N → M) :
    ∑ k : Fin N, h k
      = ∑ q : Fin n, h ⟨q.val, by have := q.isLt; omega⟩ + ∑ q : Fin n, h ⟨n + q.val, by have := q.isLt; omega⟩ := by
  subst hN
  rw [Fin.sum_univ_add]
  rfl

end Cert.DenseRows

end
-- ==== Proof.NetSpec.lean ====
/-
  The evaluation network both programs compute, written once as a plain function of extended reals.

  A position is scored from two sparse feature rows, one per side. Each row is multiplied with the rows of the
  feature-transform matrix (`x · ftwᵀ`, a sum over all feature columns), the bias is added and the result is clamped
  into `[0, 1]` (`clip01`). What follows reads only those two clamped rows of accumulators: a first hidden layer
  whose weight matrix is used in two halves, one per side (`hidden1`), a second hidden layer (`clipRow`), both
  clamped, and a last layer with one output and no clamp. `scoreOf` is that tail as a function of the two
  accumulator rows; a program that holds the accumulators of a block of positions and one that holds those of all
  positions compute the same score for a position as soon as they agree on that position's two rows.

  The clamp is spelled as both programs spell it: the minimum of one with the maximum of zero and the value, the
  one and the zero being the words the programs write.

  `score` is the whole network on the argument arrays: the tail of the two feature products of a position's row, the
  first hidden layer's weight matrix cut into its two halves of columns.
-/
import proofs.«129051_j46497315946985_1_alg».proof.Proof.LibBlockedRowsDot
import proofs.«129051_j46497315946985_1_alg».proof.Proof.LibTransposedDot

noncomputable section

namespace Cert.Nnue

open Idealize.ShloMosaic Idealize.ShloMosaic.ValueIdx
open Cert.DenseLayer (Mat prodRow)
open Cert.DenseRows (prodRowT leftHalf rightHalf)

/-- The clamp into `[0, 1]`: the minimum of one with the maximum of zero and `x`. -/
def clip01 (x : EReal) : EReal :=
  min (Ideal.ofBits .f32 0x3F800000#32) (max (Ideal.ofBits .f32 0x00000000#32) x)

variable {H1 H2 H3 : ℕ}

/-- One clamped dense layer on a single input row `v`: column `q` is the clamp of `v` times row `q` of `w`
    plus the bias. -/
def clipRow {n k : ℕ} (v : Fin k → EReal) (w : Mat n k) (bias : Fin n → EReal) (q : Fin n) : EReal :=
  clip01 (∑ j : Fin k, v j * w (ix2 q j) + bias q)

/-- The first hidden layer on the two sides' rows `W` and `B`, its weights given as the two halves `w1a` (read
    against `W`) and `w1b` (read against `B`). -/
def hidden1 (W B : Fin H1 → EReal) (w1a w1b : Mat H2 H1) (b1 : Fin H2 → EReal) (i : Fin H2) : EReal :=
  clip01 ((∑ q : Fin H1, W q * w1a (ix2 i q) + ∑ q : Fin H1, B q * w1b (ix2 i q)) + b1 i)

/-- The network after the feature products, as a function of the two rows of accumulators `accW` and `accB`. -/
def scoreOf (ftb : Fin H1 → EReal) (w1a w1b : Mat H2 H1) (b1 : Fin H2 → EReal) (w2 : Mat H3 H2) (b2 : Fin H3 → EReal)
    (w3 : Mat 1 H3) (b3 : EReal) (accW accB : Fin H1 → EReal) : EReal :=
  ∑ j : Fin H3,
      clipRow (hidden1 (fun q => clip01 (accW q + ftb q)) (fun q => clip01 (accB q + ftb q)) w1a w1b b1) w2 b2 j
        * w3 (ix2 0 j)
    + b3

/-- The score depends on the accumulators only through their values: equal rows give equal scores. -/
theorem scoreOf_congr (ftb : Fin H1 → EReal) (w1a w1b : Mat H2 H1) (b1 : Fin H2 → EReal) (w2 : Mat H3 H2)
    (b2 : Fin H3 → EReal) (w3 : Mat 1 H3) (b3 : EReal) (accW accB accW' accB' : Fin H1 → EReal)
    (hW : ∀ q, accW q = accW' q) (hB : ∀ q, accB q = accB' q) :
    scoreOf ftb w1a w1b b1 w2 b2 w3 b3 accW accB = scoreOf ftb w1a w1b b1 w2 b2 w3 b3 accW' accB' := by
  rw [funext hW, funext hB]

/-! ## The whole network on the argument arrays -/

/-- The score of position `r`: the network's tail of the two feature products of row `r`, with the first hidden
    layer's `[H2, H1 + H1]` weight matrix cut into its two halves of columns and every bias read off its vector. -/
def score {B K H1 HH H2 H3 : ℕ} (hH : H1 + H1 = HH) (white black : Mat B K) (ftw : Mat H1 K) (ftb : (⟨1, ![H1]⟩ : Shape).Idx → EReal)
    (fc1w : Mat H2 HH) (fc1b : (⟨1, ![H2]⟩ : Shape).Idx → EReal) (fc2w : Mat H3 H2) (fc2b : (⟨1, ![H3]⟩ : Shape).Idx → EReal)
    (fc3w : Mat 1 H3) (fc3b : (⟨1, ![1]⟩ : Shape).Idx → EReal) (r : Fin B) : EReal :=
  scoreOf (fun q => ftb (ix1 q))
    (leftHalf hH fc1w) (rightHalf hH fc1w)
    (fun i => fc1b (ix1 i)) fc2w (fun j => fc2b (ix1 j)) fc3w (fc3b (ix1 (0 : Fin 1)))
    (prodRowT white ftw r) (prodRowT black ftw r)

end Cert.Nnue

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«129051_j46497315946985_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.Payloads.lean ====
/-
  The kernel body's arithmetic, read entry by entry on the extended reals.

  The body computes four kinds of value. The two accumulator updates (`k0_pay4`, `k0_pay5`) add to the old
  accumulator the product of a `[512, 1024]` block of features with the transposed `[256, 1024]` slice of the
  feature-transform matrix: entry `(p, q)` grows by the sum over the block's 1024 columns of feature times weight,
  a product with the ROWS of the slice (`prodRowT`). The reset values (`k0_pay1`, `k0_pay2`) are zero everywhere.
  The first hidden layer (`k0_pay7`) and the rest of the network (`k0_pay6`) are, at row `p`, the network's tail
  `scoreOf` of row `p` of the two accumulators: every matrix product is taken with a transposed weight matrix, so it
  is again a product with that matrix's rows, and every bias is a one-row array laid over all rows.

  A change of float format is the identity on the extended reals, a shape cast between equal shapes the identity.
-/
import proofs.«129051_j46497315946985_1_alg».proof.Proof.Gen.KernelIdeal.Skeleton
import proofs.«129051_j46497315946985_1_alg».proof.Proof.NetSpec
import proofs.«129051_j46497315946985_1_alg».proof.Proof.LibPlainDot

noncomputable section

namespace Cert.KernelIdeal.Payload

open Cert.KernelIdeal Cert.KernelIdeal.Gen Idealize.ShloMosaic Idealize.ShloMosaic.ValueIdx
open Cert.DenseLayer (Mat prodRow PlainDot plainDot_of_axes matmul_zero_apply)
open Cert.DenseRows (prodRowT matmul_transposed_apply)
open Cert.Nnue

/-! ## The four products are plain row-times-column products -/

theorem plain_feat : PlainDot dot_S512x1024_S1024x256_S512x256_1_0_0_1_n_n :=
  plainDot_of_axes _ rfl rfl rfl rfl rfl rfl
theorem plain_h1 : PlainDot dot_S512x256_S256x32_S512x32_1_0_0_1_n_n :=
  plainDot_of_axes _ rfl rfl rfl rfl rfl rfl
theorem plain_h2 : PlainDot dot_S512x32_S32x32_S512x32_1_0_0_1_n_n :=
  plainDot_of_axes _ rfl rfl rfl rfl rfl rfl
theorem plain_out : PlainDot dot_S512x32_S32x1_S512x1_1_0_0_1_n_n :=
  plainDot_of_axes _ rfl rfl rfl rfl rfl rfl

/-! ## The accumulators -/

/-- The reset value of the first accumulator is zero at every entry. -/
theorem pay1_apply (i : S512x256.Idx) : k0_pay1 (F := Ideal) i = 0 := by
  unfold k0_pay1
  rw [shapeCast_self]
  exact Ideal.ofBits_zero_f32

/-- The reset value of the second accumulator is zero at every entry. -/
theorem pay2_apply (i : S512x256.Idx) : k0_pay2 (F := Ideal) i = 0 := by
  unfold k0_pay2
  rw [shapeCast_self]
  exact Ideal.ofBits_zero_f32

/-- The first accumulator's update: the old entry plus the block's product with the rows of the weight slice. -/
theorem pay4_apply (v6 : Vec Ideal S256x1024 .bf16) (v8 : Vec Ideal S512x1024 .f32) (v12 : Vec Ideal S512x256 .f32)
    (p : Fin 512) (q : Fin 256) :
    k0_pay4 (F := Ideal) v6 v8 v12 (ix2 p q) = v12 (ix2 p q) + prodRowT (a := 512) (K := 1024) (N := 256) v8 v6 p q := by
  unfold k0_pay4 k0_pay3
  rw [shapeCast_self, shapeCast_self]
  exact congrArg (v12 (ix2 p q) + ·) (matmul_transposed_apply plain_feat _ v6 _ p q)

/-- The second accumulator's update, the same on the other side's block. -/
theorem pay5_apply (v6 : Vec Ideal S256x1024 .bf16) (v10 : Vec Ideal S512x1024 .f32) (v19 : Vec Ideal S512x256 .f32)
    (p : Fin 512) (q : Fin 256) :
    k0_pay5 (F := Ideal) v6 v10 v19 (ix2 p q) = v19 (ix2 p q) + prodRowT (a := 512) (K := 1024) (N := 256) v10 v6 p q := by
  unfold k0_pay5 k0_pay3
  rw [shapeCast_self, shapeCast_self]
  exact congrArg (v19 (ix2 p q) + ·) (matmul_transposed_apply plain_feat _ v6 _ p q)

/-! ## The layers after the accumulators -/

/-- The first hidden layer at `(p, i)`: the two accumulator rows plus the feature bias, clamped, against the two
    halves of the first layer's weights, plus its bias, clamped. -/
theorem pay7_apply (v29 : Vec Ideal S512x256 .f32) (v30 : Vec Ideal S1x256 .f32) (v38 : Vec Ideal S512x256 .f32)
    (v39 : Vec Ideal S1x256 .f32) (v49 v53 : Vec Ideal S32x256 .bf16) (v58 : Vec Ideal S1x32 .f32)
    (p : Fin 512) (i : Fin 32) :
    k0_pay7 (F := Ideal) v29 v30 v38 v39 v49 v53 v58 (ix2 p i)
      = hidden1 (H1 := 256) (H2 := 32) (fun q => clip01 (v29 (ix2 p q) + v30 (ix2 (0 : Fin 1) q)))
          (fun q => clip01 (v38 (ix2 p q) + v39 (ix2 (0 : Fin 1) q))) v49 v53 (fun j => v58 (ix2 (0 : Fin 1) j)) i := by
  unfold k0_pay7 hidden1 clip01
  simp only [shapeCast_self, truncf_apply, minimumf_apply, maximumf_apply, addf_apply, broadcast_apply,
    matmul_transposed_apply plain_h1, broadcastTo_1b_ab_apply]
  unfold prodRowT
  simp only [truncf_apply, minimumf_apply, maximumf_apply, addf_apply, broadcast_apply, broadcastTo_1b_ab_apply]
  rfl

/-- The score at row `p`: the first hidden layer's row against the second layer's weights, plus bias, clamped,
    against the last layer's one weight row, plus its bias. -/
theorem pay6_apply (v66 : FVec Ideal S512x32 .bf16) (v67 : Vec Ideal S32x32 .bf16) (v71 : Vec Ideal S1x32 .f32)
    (v80 : Vec Ideal S1x32 .bf16) (v84 : Vec Ideal S1x1 .f32) (p : Fin 512) :
    k0_pay6 (F := Ideal) v66 v67 v71 v80 v84 (ix2 p (0 : Fin 1))
      = ∑ j : Fin 32, clipRow (n := 32) (k := 32) (fun i => v66 (ix2 p i)) v67 (fun j => v71 (ix2 (0 : Fin 1) j)) j
            * v80 (ix2 (0 : Fin 1) j)
          + v84 (ix2 (0 : Fin 1) (0 : Fin 1)) := by
  unfold k0_pay6 clipRow clip01
  simp only [shapeCast_self, truncf_apply, minimumf_apply, maximumf_apply, addf_apply, broadcast_apply,
    matmul_transposed_apply plain_h2, matmul_transposed_apply plain_out, broadcastTo_1b_ab_apply]
  unfold prodRowT
  simp only [truncf_apply, minimumf_apply, maximumf_apply, addf_apply, broadcast_apply, broadcastTo_1b_ab_apply,
    matmul_transposed_apply plain_h2]
  rfl

/-- The output entry of row `p` is the network's tail of row `p` of the two accumulators it is computed from. -/
theorem tail_eq (accW accB : Vec Ideal S512x256 .f32) (x3 : Vec Ideal S1x256 .f32) (x4 x5 : Vec Ideal S32x256 .bf16)
    (x6 : Vec Ideal S1x32 .f32) (x7 : Vec Ideal S32x32 .bf16) (x8 : Vec Ideal S1x32 .f32) (x9 : Vec Ideal S1x32 .bf16)
    (x10 : Vec Ideal S1x1 .f32) (p : Fin 512) :
    k0_pay6 (F := Ideal) (k0_pay7 accW x3 accB x3 x4 x5 x6) x7 x8 x9 x10 (ix2 p (0 : Fin 1))
      = scoreOf (H1 := 256) (H2 := 32) (H3 := 32) (fun q => x3 (ix2 (0 : Fin 1) q)) x4 x5 (fun j => x6 (ix2 (0 : Fin 1) j)) x7
          (fun j => x8 (ix2 (0 : Fin 1) j)) x9 (x10 (ix2 (0 : Fin 1) (0 : Fin 1)))
          (fun q => accW (ix2 p q)) (fun q => accB (ix2 p q)) := by
  rw [pay6_apply]
  simp only [pay7_apply]
  rfl

end Cert.KernelIdeal.Payload

end
-- ==== Proof.KernelValue.lean ====
/-
  What the kernel program's result array holds after a run: the network's score of every position.

  The grid has 8 batch tiles of 512 positions and, for each tile, 40 steps over the 40960 feature columns, 1024 at a
  time; point `t` is step `t % 40` of tile `t / 40`. Two accumulators are carried from step to step. The proof
  follows the data:

  * the block of features a point reads is rows `512·(t / 40) …` and columns `1024·(t % 40) …` of the feature
    array, the slice of the feature-transform matrix it loads the same columns of all 256 rows, and every other
    operand's block is its whole array;
  * so after step `k` of a tile each accumulator entry is the sum of the parts of column blocks `0 … k` of the
    product of the tile's row with a row of the feature-transform matrix (`partialDot`): the first step adds block 0's
    part to the zero it has just stored, every later step adds its block's part to what the step before left
    (induction on the point); after the last step it is the whole product;
  * the last step computes the network's tail from the two accumulators row by row and stores one score per position,
    which is written back as the tile's block of the result; the eight tiles' blocks cover the result array.

  The weights and biases are read as the host operations before the region leave them: casts to a narrower float format
  (the identity on the extended reals), the two halves of the first hidden layer's matrix, bias vectors laid out as
  one-row arrays. Sums are re-grouped in a commutative monoid only, so nothing here asks the inputs to be finite.
-/
import proofs.«129051_j46497315946985_1_alg».proof.Proof.Gen.KernelIdeal.Value
import proofs.«129051_j46497315946985_1_alg».proof.Proof.Pieces
import proofs.«129051_j46497315946985_1_alg».proof.Proof.Payloads
import Idealize.ShloMosaic.Lib.StableHlo.Run
import Idealize.ShloMosaic.Lib.Tactic

noncomputable section

namespace Cert.KernelIdeal.NetValue

open Cert.KernelIdeal Cert.KernelIdeal.Gen Idealize.ShloMosaic Idealize.ShloMosaic.TcCoe Idealize.SL.Sem
open Idealize.ShloMosaic.ValueIdx
open Idealize.ShloMosaic.Pipeline (Dat)
open Cert.DenseLayer (Mat)
open Cert.DenseRows (prodRowT rowIx leftHalf rightHalf leftHalf_apply rightHalf_apply)
open Cert.BlockedRows
open Cert.Nnue

variable (m : (ℓ : Loc nD τ sig) → Buf (Elt Ideal) ℓ) (ρ : Dev nD → PrngReg)

/-! ## The arrays the region finds -/

/-- The first side's features, one row per position. -/
abbrev white (c : Dev nD) : Vec Ideal S4096x40960 .f32 := V m c main_arg0
/-- The second side's features. -/
abbrev black (c : Dev nD) : Vec Ideal S4096x40960 .f32 := V m c main_arg1
/-- The feature-transform matrix, one row per accumulator column. -/
abbrev ftw (c : Dev nD) : Vec Ideal S256x40960 .bf16 := V m c main_v0
/-- The feature bias, as a one-row array. -/
abbrev ftb (c : Dev nD) : Vec Ideal S1x256 .f32 := V m c main_v1
/-- The first hidden layer's weights read against the first side, and against the second. -/
abbrev w1a (c : Dev nD) : Vec Ideal S32x256 .bf16 := V m c main_v3
abbrev w1b (c : Dev nD) : Vec Ideal S32x256 .bf16 := V m c main_v5
abbrev b1 (c : Dev nD) : Vec Ideal S1x32 .f32 := V m c main_v6
abbrev w2 (c : Dev nD) : Vec Ideal S32x32 .bf16 := V m c main_v7
abbrev b2 (c : Dev nD) : Vec Ideal S1x32 .f32 := V m c main_v8
abbrev w3 (c : Dev nD) : Vec Ideal S1x32 .bf16 := V m c main_v9
abbrev b3 (c : Dev nD) : Vec Ideal S1x1 .f32 := V m c main_v10

/-! ## The grid: point `t` is step `t % 40` of batch tile `t / 40` -/

theorem hN : cfg0.N = 320 := N_0

/-- The feature windows' block index at point `t`: the tile's number on the rows, the step's on the columns. -/
theorem idx_feat0 : ∀ t : Fin cfg0.N, win0_0.index t 0 = t.val / 40 ∧ win0_0.index t 1 = t.val % 40 :=
  (by decide +kernel : ∀ t : Fin grid0.N, win0_0.index t 0 = t.val / 40 ∧ win0_0.index t 1 = t.val % 40)
theorem idx_feat1 : ∀ t : Fin cfg0.N, win0_1.index t 0 = t.val / 40 ∧ win0_1.index t 1 = t.val % 40 :=
  (by decide +kernel : ∀ t : Fin grid0.N, win0_1.index t 0 = t.val / 40 ∧ win0_1.index t 1 = t.val % 40)
/-- The step number is the point's second coordinate. -/
theorem coord_step : ∀ t : Fin cfg0.N, (grid0.coords t 1).val = t.val % 40 :=
  (by decide +kernel : ∀ t : Fin grid0.N, (grid0.coords t 1).val = t.val % 40)

theorem hK : 40 * 1024 = 40960 := rfl

/-- Row `p` of batch tile `t / 40`, as a row of the whole batch. -/
def rowOf (t : Fin cfg0.N) (p : Fin 512) : Fin 4096 :=
  ⟨512 * (t.val / 40) + p.val, by have := t.isLt; have := hN; have := p.isLt; omega⟩
/-- The step of point `t`. -/
def stepOf (t : Fin cfg0.N) : Fin 40 := ⟨t.val % 40, Nat.mod_lt _ (by decide)⟩

/-! ## What the windows' blocks are, as parts of the arrays -/

/-- The first side's block at point `t`: rows of tile `t / 40`, the 1024 columns of step `t % 40`. -/
theorem white_blk (c : Dev nD) (t : Fin cfg0.N) (p : Fin 512) (j : Fin 1024) :
    (iblk m c 0 t : Vec Ideal S512x1024 .f32) (ix2 p j) = white m c (ix2 (rowOf t p) (blkCol hK (stepOf t) j)) := by
  unfold iblk
  rw [View.read_apply]
  show V m c main_arg0 _ = V m c main_arg0 _
  refine congrArg (V m c main_arg0) (funext fun a => Fin.ext ?_)
  match a with
  | ⟨0, _⟩ =>
    show win0_0.index t 0 * 512 + 1 * p.val = 512 * (t.val / 40) + p.val
    rw [(idx_feat0 t).1]; omega
  | ⟨1, _⟩ =>
    show win0_0.index t 1 * 1024 + 1 * j.val = j.val + 1024 * (t.val % 40)
    rw [(idx_feat0 t).2]; omega

/-- The second side's block, the same part of its array. -/
theorem black_blk (c : Dev nD) (t : Fin cfg0.N) (p : Fin 512) (j : Fin 1024) :
    (iblk m c 1 t : Vec Ideal S512x1024 .f32) (ix2 p j) = black m c (ix2 (rowOf t p) (blkCol hK (stepOf t) j)) := by
  unfold iblk
  rw [View.read_apply]
  show V m c main_arg1 _ = V m c main_arg1 _
  refine congrArg (V m c main_arg1) (funext fun a => Fin.ext ?_)
  match a with
  | ⟨0, _⟩ =>
    show win0_1.index t 0 * 512 + 1 * p.val = 512 * (t.val / 40) + p.val
    rw [(idx_feat1 t).1]; omega
  | ⟨1, _⟩ =>
    show win0_1.index t 1 * 1024 + 1 * j.val = j.val + 1024 * (t.val % 40)
    rw [(idx_feat1 t).2]; omega

/-- A window whose one block is its whole array, at block index zero on both axes, holds the array at every point:
    the feature-transform matrix … -/
theorem ftw_blk (c : Dev nD) (t : Fin cfg0.N) : (iblk m c 2 t : Vec Ideal S256x40960 .bf16) = ftw m c := by
  have hz' : (fun a => win0_2.index t a * main_v0.ty.shape.size a) = fun _ => 0 :=
    funext fun a => by
      have := (by decide +kernel : ∀ t : Fin grid0.N, ∀ a : Fin 2, win0_2.index t a = 0) t a
      simp [this]
  exact Memref.read_access_unit_zero (Elt Ideal) main_v0 hz' (fun a => by rw [congrFun hz' a]; simp) (ftw m c)

/-- … and likewise window 3. -/
theorem ftb_blk (c : Dev nD) (t : Fin cfg0.N) : (iblk m c 3 t : Vec Ideal S1x256 .f32) = ftb m c := by
  have hz' : (fun a => win0_3.index t a * main_v1.ty.shape.size a) = fun _ => 0 :=
    funext fun a => by
      have := (by decide +kernel : ∀ t : Fin grid0.N, ∀ a : Fin 2, win0_3.index t a = 0) t a
      simp [this]
  exact Memref.read_access_unit_zero (Elt Ideal) main_v1 hz' (fun a => by rw [congrFun hz' a]; simp) (ftb m c)

/-- … and likewise window 4. -/
theorem w1a_blk (c : Dev nD) (t : Fin cfg0.N) : (iblk m c 4 t : Vec Ideal S32x256 .bf16) = w1a m c := by
  have hz' : (fun a => win0_4.index t a * main_v3.ty.shape.size a) = fun _ => 0 :=
    funext fun a => by
      have := (by decide +kernel : ∀ t : Fin grid0.N, ∀ a : Fin 2, win0_4.index t a = 0) t a
      simp [this]
  exact Memref.read_access_unit_zero (Elt Ideal) main_v3 hz' (fun a => by rw [congrFun hz' a]; simp) (w1a m c)

/-- … and likewise window 5. -/
theorem w1b_blk (c : Dev nD) (t : Fin cfg0.N) : (iblk m c 5 t : Vec Ideal S32x256 .bf16) = w1b m c := by
  have hz' : (fun a => win0_5.index t a * main_v5.ty.shape.size a) = fun _ => 0 :=
    funext fun a => by
      have := (by decide +kernel : ∀ t : Fin grid0.N, ∀ a : Fin 2, win0_5.index t a = 0) t a
      simp [this]
  exact Memref.read_access_unit_zero (Elt Ideal) main_v5 hz' (fun a => by rw [congrFun hz' a]; simp) (w1b m c)

/-- … and likewise window 6. -/
theorem b1_blk (c : Dev nD) (t : Fin cfg0.N) : (iblk m c 6 t : Vec Ideal S1x32 .f32) = b1 m c := by
  have hz' : (fun a => win0_6.index t a * main_v6.ty.shape.size a) = fun _ => 0 :=
    funext fun a => by
      have := (by decide +kernel : ∀ t : Fin grid0.N, ∀ a : Fin 2, win0_6.index t a = 0) t a
      simp [this]
  exact Memref.read_access_unit_zero (Elt Ideal) main_v6 hz' (fun a => by rw [congrFun hz' a]; simp) (b1 m c)

/-- … and likewise window 7. -/
theorem w2_blk (c : Dev nD) (t : Fin cfg0.N) : (iblk m c 7 t : Vec Ideal S32x32 .bf16) = w2 m c := by
  have hz' : (fun a => win0_7.index t a * main_v7.ty.shape.size a) = fun _ => 0 :=
    funext fun a => by
      have := (by decide +kernel : ∀ t : Fin grid0.N, ∀ a : Fin 2, win0_7.index t a = 0) t a
      simp [this]
  exact Memref.read_access_unit_zero (Elt Ideal) main_v7 hz' (fun a => by rw [congrFun hz' a]; simp) (w2 m c)

/-- … and likewise window 8. -/
theorem b2_blk (c : Dev nD) (t : Fin cfg0.N) : (iblk m c 8 t : Vec Ideal S1x32 .f32) = b2 m c := by
  have hz' : (fun a => win0_8.index t a * main_v8.ty.shape.size a) = fun _ => 0 :=
    funext fun a => by
      have := (by decide +kernel : ∀ t : Fin grid0.N, ∀ a : Fin 2, win0_8.index t a = 0) t a
      simp [this]
  exact Memref.read_access_unit_zero (Elt Ideal) main_v8 hz' (fun a => by rw [congrFun hz' a]; simp) (b2 m c)

/-- … and likewise window 9. -/
theorem w3_blk (c : Dev nD) (t : Fin cfg0.N) : (iblk m c 9 t : Vec Ideal S1x32 .bf16) = w3 m c := by
  have hz' : (fun a => win0_9.index t a * main_v9.ty.shape.size a) = fun _ => 0 :=
    funext fun a => by
      have := (by decide +kernel : ∀ t : Fin grid0.N, ∀ a : Fin 2, win0_9.index t a = 0) t a
      simp [this]
  exact Memref.read_access_unit_zero (Elt Ideal) main_v9 hz' (fun a => by rw [congrFun hz' a]; simp) (w3 m c)

/-- … and likewise window 10. -/
theorem b3_blk (c : Dev nD) (t : Fin cfg0.N) : (iblk m c 10 t : Vec Ideal S1x1 .f32) = b3 m c := by
  have hz' : (fun a => win0_10.index t a * main_v10.ty.shape.size a) = fun _ => 0 :=
    funext fun a => by
      have := (by decide +kernel : ∀ t : Fin grid0.N, ∀ a : Fin 2, win0_10.index t a = 0) t a
      simp [this]
  exact Memref.read_access_unit_zero (Elt Ideal) main_v10 hz' (fun a => by rw [congrFun hz' a]; simp) (b3 m c)

/-- The slice of the feature-transform matrix the body loads at point `t`: all 256 rows, the step's 1024 columns. -/
abbrev wslice (c : Dev nD) (t : Fin cfg0.N) : Vec Ideal S256x1024 .bf16 :=
  View.ld (iblk m c 2 t : Vec Ideal S256x40960 .bf16)
    (Rect.unit (k0_off1 (grid0.coords t)) S256x1024.size (k0_off1_inb (grid0.coords t)))

theorem wslice_apply (c : Dev nD) (t : Fin cfg0.N) (q : Fin 256) (j : Fin 1024) :
    wslice m c t (ix2 q j) = ftw m c (ix2 q (blkCol hK (stepOf t) j)) := by
  show (iblk m c 2 t : Vec Ideal S256x40960 .bf16) _ = _
  rw [ftw_blk]
  refine congrArg (ftw m c) (funext fun a => Fin.ext ?_)
  match a with
  | ⟨0, _⟩ =>
    show k0_off1 (grid0.coords t) 0 + 1 * q.val = q.val
    rw [k0_off1_eq]; show 0 + 1 * q.val = q.val; omega
  | ⟨1, _⟩ =>
    show k0_off1 (grid0.coords t) 1 + 1 * j.val = j.val + 1024 * (t.val % 40)
    rw [k0_off1_eq]; show 1024 * (grid0.coords t 1).val + 1 * j.val = _
    rw [coord_step]; omega

/-! ## What a point leaves in the accumulators and in the output block -/

/-- At the first step of a tile the first accumulator is the step's product added to the zero just stored … -/
theorem acc0_first (c : Dev nD) (t : Fin cfg0.N) (h0 : t.val % 40 = 0) (h1 : ¬t.val % 40 = 39) :
    (outsAt0 m c t.val t.isLt).2.1 = k0_pay4 (wslice m c t) (iblk m c 0 t) (k0_pay1 (F := Ideal)) := by
  rw [outsAt0_A m c t h0 h1]; dsimp only
  exact Pieces.sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- … and so is the second. -/
theorem acc1_first (c : Dev nD) (t : Fin cfg0.N) (h0 : t.val % 40 = 0) (h1 : ¬t.val % 40 = 39) :
    (outsAt0 m c t.val t.isLt).2.2 = k0_pay5 (wslice m c t) (iblk m c 1 t) (k0_pay2 (F := Ideal)) := by
  rw [outsAt0_A m c t h0 h1]; dsimp only
  exact Pieces.sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- At a middle step each accumulator is the step's product added to what the step before left. -/
theorem acc0_middle (c : Dev nD) (t : Fin cfg0.N) (h0 : ¬t.val % 40 = 0) (h1 : ¬t.val % 40 = 39) :
    (outsAt0 m c t.val t.isLt).2.1 = k0_pay4 (wslice m c t) (iblk m c 0 t) (outsAt0 m c (t.val - 1) (Nat.lt_of_le_of_lt (Nat.sub_le _ _) t.isLt)).2.1 := by
  rw [outsAt0_B m c t h0 h1]; dsimp only
  exact Pieces.sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2

theorem acc1_middle (c : Dev nD) (t : Fin cfg0.N) (h0 : ¬t.val % 40 = 0) (h1 : ¬t.val % 40 = 39) :
    (outsAt0 m c t.val t.isLt).2.2 = k0_pay5 (wslice m c t) (iblk m c 1 t) (outsAt0 m c (t.val - 1) (Nat.lt_of_le_of_lt (Nat.sub_le _ _) t.isLt)).2.2 := by
  rw [outsAt0_B m c t h0 h1]; dsimp only
  exact Pieces.sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2

/-- At the last step the same … -/
theorem acc0_last (c : Dev nD) (t : Fin cfg0.N) (h0 : ¬t.val % 40 = 0) (h1 : t.val % 40 = 39) :
    (outsAt0 m c t.val t.isLt).2.1 = k0_pay4 (wslice m c t) (iblk m c 0 t) (outsAt0 m c (t.val - 1) (Nat.lt_of_le_of_lt (Nat.sub_le _ _) t.isLt)).2.1 := by
  rw [outsAt0_C m c t h0 h1]; dsimp only
  exact Pieces.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2

theorem acc1_last (c : Dev nD) (t : Fin cfg0.N) (h0 : ¬t.val % 40 = 0) (h1 : t.val % 40 = 39) :
    (outsAt0 m c t.val t.isLt).2.2 = k0_pay5 (wslice m c t) (iblk m c 1 t) (outsAt0 m c (t.val - 1) (Nat.lt_of_le_of_lt (Nat.sub_le _ _) t.isLt)).2.2 := by
  rw [outsAt0_C m c t h0 h1]; dsimp only
  exact Pieces.sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2

/-- … and the output block is the network's tail of the two accumulators as the last step leaves them. -/
theorem out_last (c : Dev nD) (t : Fin cfg0.N) (h0 : ¬t.val % 40 = 0) (h1 : t.val % 40 = 39) :
    (outsAt0 m c t.val t.isLt).1
      = k0_pay6 (k0_pay7 (k0_pay4 (wslice m c t) (iblk m c 0 t) (outsAt0 m c (t.val - 1) (Nat.lt_of_le_of_lt (Nat.sub_le _ _) t.isLt)).2.1) (iblk m c 3 t)
            (k0_pay5 (wslice m c t) (iblk m c 1 t) (outsAt0 m c (t.val - 1) (Nat.lt_of_le_of_lt (Nat.sub_le _ _) t.isLt)).2.2) (iblk m c 3 t) (iblk m c 4 t) (iblk m c 5 t) (iblk m c 6 t))
          (iblk m c 7 t) (iblk m c 8 t) (iblk m c 9 t) (iblk m c 10 t) := by
  rw [outsAt0_C m c t h0 h1]; dsimp only
  exact Pieces.out_C_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2

/-! ## The accumulators after every point: the partial products of the tile's rows -/

/-- An accumulator entry that holds the parts of blocks `0 … k` and grows by the product of block `k + 1` holds the
    parts of blocks `0 … k + 1`. -/
theorem grow (x : Mat 4096 40960) (w : Mat 256 40960) (xb : Vec Ideal S512x1024 .f32) (wb : Vec Ideal S256x1024 .bf16)
    (a : EReal) (r : Fin 4096) (p : Fin 512) (q : Fin 256) (k : ℕ) (hk : k + 1 < 40)
    (hx : ∀ j, xb (ix2 p j) = x (ix2 r (blkCol hK ⟨k + 1, hk⟩ j)))
    (hw : ∀ j, wb (ix2 q j) = w (ix2 q (blkCol hK ⟨k + 1, hk⟩ j)))
    (ha : a = partialDot hK x w r q k) :
    a + prodRowT (a := 512) (K := 1024) (N := 256) xb wb p q = partialDot hK x w r q (k + 1) := by
  rw [partialDot_succ hK x w r q k hk, ha, prodRowT_eq_blockDot hK xb wb x w p q r q ⟨k + 1, hk⟩ hx hw]

/-- An accumulator entry that is zero and grows by the product of block `0` holds that block's part. -/
theorem start (x : Mat 4096 40960) (w : Mat 256 40960) (xb : Vec Ideal S512x1024 .f32) (wb : Vec Ideal S256x1024 .bf16)
    (r : Fin 4096) (p : Fin 512) (q : Fin 256)
    (hx : ∀ j, xb (ix2 p j) = x (ix2 r (blkCol hK ⟨0, by decide⟩ j)))
    (hw : ∀ j, wb (ix2 q j) = w (ix2 q (blkCol hK ⟨0, by decide⟩ j))) :
    (0 : EReal) + prodRowT (a := 512) (K := 1024) (N := 256) xb wb p q = partialDot hK x w r q 0 := by
  rw [zero_add, partialDot_zero hK x w r q (by decide), prodRowT_eq_blockDot hK xb wb x w p q r q ⟨0, by decide⟩ hx hw]

/-- After point `n`, entry `(p, q)` of each accumulator is the sum of the parts of blocks `0 … n % 40` of the
    product of row `p` of the point's tile with row `q` of the feature-transform matrix: by induction on the point,
    a tile's first step starting from the zero it stores, every other step growing what the step before left. -/
theorem acc_inv (c : Dev nD) : ∀ (n : ℕ) (h : n < cfg0.N) (p : Fin 512) (q : Fin 256),
    (outsAt0 m c n h).2.1 (ix2 p q) = partialDot hK (white m c) (ftw m c) (rowOf ⟨n, h⟩ p) q (n % 40)
      ∧ (outsAt0 m c n h).2.2 (ix2 p q) = partialDot hK (black m c) (ftw m c) (rowOf ⟨n, h⟩ p) q (n % 40) := by
  intro n
  induction n with
  | zero =>
    intro h p q
    have e0 : stepOf ⟨0, h⟩ = ⟨0, by decide⟩ := rfl
    refine ⟨?_, ?_⟩
    · rw [show (outsAt0 m c 0 h).2.1 = _ from acc0_first m c ⟨0, h⟩ rfl (show ¬(0 : ℕ) % 40 = 39 by decide), Payload.pay4_apply, Payload.pay1_apply]
      exact start (white m c) (ftw m c) _ _ _ p q (fun j => e0 ▸ white_blk m c ⟨0, h⟩ p j) (fun j => e0 ▸ wslice_apply m c ⟨0, h⟩ q j)
    · rw [show (outsAt0 m c 0 h).2.2 = _ from acc1_first m c ⟨0, h⟩ rfl (show ¬(0 : ℕ) % 40 = 39 by decide), Payload.pay5_apply, Payload.pay2_apply]
      exact start (black m c) (ftw m c) _ _ _ p q (fun j => e0 ▸ black_blk m c ⟨0, h⟩ p j) (fun j => e0 ▸ wslice_apply m c ⟨0, h⟩ q j)
  | succ n ih =>
    intro h p q
    have hlt : n + 1 < 320 := lt_of_lt_of_eq h hN
    by_cases h0 : (n + 1) % 40 = 0
    · have h1 : ¬(n + 1) % 40 = 39 := by omega
      have e0 : stepOf ⟨n + 1, h⟩ = ⟨0, by decide⟩ := Fin.ext h0
      rw [h0]
      refine ⟨?_, ?_⟩
      · rw [show (outsAt0 m c (n + 1) h).2.1 = _ from acc0_first m c ⟨n + 1, h⟩ h0 h1, Payload.pay4_apply, Payload.pay1_apply]
        exact start (white m c) (ftw m c) _ _ _ p q (fun j => e0 ▸ white_blk m c ⟨n + 1, h⟩ p j) (fun j => e0 ▸ wslice_apply m c ⟨n + 1, h⟩ q j)
      · rw [show (outsAt0 m c (n + 1) h).2.2 = _ from acc1_first m c ⟨n + 1, h⟩ h0 h1, Payload.pay5_apply, Payload.pay2_apply]
        exact start (black m c) (ftw m c) _ _ _ p q (fun j => e0 ▸ black_blk m c ⟨n + 1, h⟩ p j) (fun j => e0 ▸ wslice_apply m c ⟨n + 1, h⟩ q j)
    · have hk : (n + 1) % 40 = n % 40 + 1 := by omega
      have hk' : n % 40 + 1 < 40 := by omega
      have e1 : stepOf ⟨n + 1, h⟩ = ⟨n % 40 + 1, hk'⟩ := Fin.ext hk
      have er : rowOf ⟨n + 1, h⟩ p = rowOf ⟨n, Nat.lt_of_succ_lt h⟩ p := Fin.ext (by
        show 512 * ((n + 1) / 40) + p.val = 512 * (n / 40) + p.val
        have : (n + 1) / 40 = n / 40 := by omega
        rw [this])
      obtain ⟨ihw, ihb⟩ := ih (Nat.lt_of_succ_lt h) p q
      rw [hk, er]
      have hacc0 : (outsAt0 m c (n + 1) h).2.1 = k0_pay4 (wslice m c ⟨n + 1, h⟩) (iblk m c 0 ⟨n + 1, h⟩) (outsAt0 m c n (Nat.lt_of_succ_lt h)).2.1 := by
        by_cases h1 : (n + 1) % 40 = 39
        · exact acc0_last m c ⟨n + 1, h⟩ h0 h1
        · exact acc0_middle m c ⟨n + 1, h⟩ h0 h1
      have hacc1 : (outsAt0 m c (n + 1) h).2.2 = k0_pay5 (wslice m c ⟨n + 1, h⟩) (iblk m c 1 ⟨n + 1, h⟩) (outsAt0 m c n (Nat.lt_of_succ_lt h)).2.2 := by
        by_cases h1 : (n + 1) % 40 = 39
        · exact acc1_last m c ⟨n + 1, h⟩ h0 h1
        · exact acc1_middle m c ⟨n + 1, h⟩ h0 h1
      refine ⟨?_, ?_⟩
      · rw [hacc0, Payload.pay4_apply]
        exact grow (white m c) (ftw m c) _ _ _ _ p q (n % 40) hk' (fun j => e1 ▸ er ▸ white_blk m c ⟨n + 1, h⟩ p j)
          (fun j => e1 ▸ wslice_apply m c ⟨n + 1, h⟩ q j) ihw
      · rw [hacc1, Payload.pay5_apply]
        exact grow (black m c) (ftw m c) _ _ _ _ p q (n % 40) hk' (fun j => e1 ▸ er ▸ black_blk m c ⟨n + 1, h⟩ p j)
          (fun j => e1 ▸ wslice_apply m c ⟨n + 1, h⟩ q j) ihb

/-! ## The result array -/

/-- After a tile's last step the accumulators hold the whole products of the tile's rows with the rows of the
    feature-transform matrix. -/
theorem accW_last (c : Dev nD) (t : Fin cfg0.N) (h0 : ¬t.val % 40 = 0) (h1 : t.val % 40 = 39) (p : Fin 512) (q : Fin 256) :
    (k0_pay4 (wslice m c t) (iblk m c 0 t) (outsAt0 m c (t.val - 1) (Nat.lt_of_le_of_lt (Nat.sub_le _ _) t.isLt)).2.1) (ix2 p q) = prodRowT (white m c) (ftw m c) (rowOf t p) q := by
  rw [← congrFun (acc0_last m c t h0 h1) (ix2 p q), (acc_inv m c t.val t.isLt p q).1, h1]
  exact partialDot_last hK _ _ _ _ 39 rfl

theorem accB_last (c : Dev nD) (t : Fin cfg0.N) (h0 : ¬t.val % 40 = 0) (h1 : t.val % 40 = 39) (p : Fin 512) (q : Fin 256) :
    (k0_pay5 (wslice m c t) (iblk m c 1 t) (outsAt0 m c (t.val - 1) (Nat.lt_of_le_of_lt (Nat.sub_le _ _) t.isLt)).2.2) (ix2 p q) = prodRowT (black m c) (ftw m c) (rowOf t p) q := by
  rw [← congrFun (acc1_last m c t h0 h1) (ix2 p q), (acc_inv m c t.val t.isLt p q).2, h1]
  exact partialDot_last hK _ _ _ _ 39 rfl

/-- What the result array ends holding: at position `r` the network's tail of the two feature products of row `r`,
    the weights and biases as the region finds them. -/
def scores (c : Dev nD) : Buf (Elt Ideal) ((c : Thread nD τ).loc main_v11) := fun i : S4096x1.Idx =>
  scoreOf (fun q => ftb m c (ix2 (0 : Fin 1) q)) (w1a m c) (w1b m c) (fun j => b1 m c (ix2 (0 : Fin 1) j)) (w2 m c)
    (fun j => b2 m c (ix2 (0 : Fin 1) j)) (w3 m c) (b3 m c (ix2 (0 : Fin 1) (0 : Fin 1)))
    (prodRowT (white m c) (ftw m c) (rowIx i)) (prodRowT (black m c) (ftw m c) (rowIx i))

/-- The output window's block index at point `t`: the tile's number, and zero. -/
theorem idx_out : ∀ t : Fin cfg0.N, win0_11.index t 0 = t.val / 40 ∧ win0_11.index t 1 = 0 :=
  (by decide +kernel : ∀ t : Fin grid0.N, win0_11.index t 0 = t.val / 40 ∧ win0_11.index t 1 = 0)

/-- What a tile's last point writes back is the tile's block of the scores. -/
theorem flushed_eq (c : Dev nD) (t : Fin cfg0.N) (hf : (cfg0.win 11).flush t = true) :
    (dats m 0 c).flushed 11 t = ((cfg0.win 11).blk t).view.read (Elt Ideal) (scores m c) := by
  have h1 : t.val % 40 = 39 := (flush0_11 t).mp hf
  have h0 : ¬t.val % 40 = 0 := by omega
  rw [Value.flushed11, out_last m c t h0 h1]
  funext j
  obtain ⟨p, u, rfl⟩ : ∃ (p : Fin 512) (u : Fin 1), j = ix2 p u := ⟨j 0, j 1, eq_ix2 j⟩
  obtain rfl : u = 0 := Subsingleton.elim _ _
  show k0_pay6 (F := Ideal) (k0_pay7 (k0_pay4 (wslice m c t) (iblk m c 0 t) (outsAt0 m c (t.val - 1) (Nat.lt_of_le_of_lt (Nat.sub_le _ _) t.isLt)).2.1) (iblk m c 3 t) (k0_pay5 (wslice m c t) (iblk m c 1 t) (outsAt0 m c (t.val - 1) (Nat.lt_of_le_of_lt (Nat.sub_le _ _) t.isLt)).2.2) (iblk m c 3 t) (iblk m c 4 t) (iblk m c 5 t) (iblk m c 6 t))
      (iblk m c 7 t) (iblk m c 8 t) (iblk m c 9 t) (iblk m c 10 t) (ix2 p (0 : Fin 1))
    = scores m c (((cfg0.win 11).blk t).view.emb (ix2 p (0 : Fin 1)))
  refine (Payload.tail_eq (k0_pay4 (wslice m c t) (iblk m c 0 t) (outsAt0 m c (t.val - 1) (Nat.lt_of_le_of_lt (Nat.sub_le _ _) t.isLt)).2.1) (k0_pay5 (wslice m c t) (iblk m c 1 t) (outsAt0 m c (t.val - 1) (Nat.lt_of_le_of_lt (Nat.sub_le _ _) t.isLt)).2.2) (iblk m c 3 t) (iblk m c 4 t) (iblk m c 5 t) (iblk m c 6 t) (iblk m c 7 t)
    (iblk m c 8 t) (iblk m c 9 t) (iblk m c 10 t) p).trans ?_
  rw [ftb_blk, w1a_blk, w1b_blk, b1_blk, w2_blk, b2_blk, w3_blk, b3_blk]
  have hrow : rowIx (a := 4096) (b := 1) (((cfg0.win 11).blk t).view.emb (ix2 p (0 : Fin 1))) = rowOf t p := Fin.ext (by
    show win0_11.index t 0 * 512 + 1 * p.val = 512 * (t.val / 40) + p.val
    rw [(idx_out t).1]; omega)
  unfold scores
  dsimp only
  refine scoreOf_congr _ _ _ _ _ _ _ _ _ _ _ _ (fun q => ?_) (fun q => ?_)
  · exact (accW_last m c t h0 h1 p q).trans (congrArg (fun r => prodRowT (white m c) (ftw m c) r q) hrow.symm)
  · exact (accB_last m c t h0 h1 p q).trans (congrArg (fun r => prodRowT (black m c) (ftw m c) r q) hrow.symm)

/-- An index of the result array is in point `t`'s block iff each coordinate is in the block's range on its axis. -/
theorem mem_blk (t : Fin cfg0.N) (i : S4096x1.Idx) :
    i ∈ ((cfg0.win 11).blk t).view.set ↔ ∀ a : Fin 2, win0_11.index t a * S512x1.size a ≤ (i a).val ∧ (i a).val < win0_11.index t a * S512x1.size a + S512x1.size a := by
  show i ∈ ((View.whole main_v11).slice (win0_11.rect t)).set ↔ _
  rw [View.set_slice_whole, Rect.mem_set_unit]
  exact Iff.rfl

/-- Every position's row lies in the block its tile's last point writes back. -/
theorem covered (i : S4096x1.Idx) : ∃ t : Fin cfg0.N, (cfg0.win 11).flush t = true ∧ i ∈ ((cfg0.win 11).blk t).view.set := by
  have hi0 : (i 0).val < 4096 := (i 0).isLt
  have hi1 : (i 1).val < 1 := (i 1).isLt
  have hlt : 40 * ((i 0).val / 512) + 39 < cfg0.N := by rw [hN]; omega
  refine ⟨⟨40 * ((i 0).val / 512) + 39, hlt⟩, (flush0_11 _).mpr (by show (40 * ((i 0).val / 512) + 39) % 40 = 39; omega), ?_⟩
  rw [mem_blk]
  obtain ⟨e0, e1⟩ := idx_out ⟨40 * ((i 0).val / 512) + 39, hlt⟩
  have e0' : win0_11.index ⟨40 * ((i 0).val / 512) + 39, hlt⟩ 0 = (i 0).val / 512 := by
    rw [e0]; show (40 * ((i 0).val / 512) + 39) / 40 = (i 0).val / 512; omega
  intro a
  match a with
  | ⟨0, _⟩ =>
    show win0_11.index ⟨40 * ((i 0).val / 512) + 39, hlt⟩ 0 * 512 ≤ (i 0).val ∧ (i 0).val < win0_11.index ⟨40 * ((i 0).val / 512) + 39, hlt⟩ 0 * 512 + 512
    rw [e0']; omega
  | ⟨1, _⟩ =>
    show win0_11.index ⟨40 * ((i 0).val / 512) + 39, hlt⟩ 1 * 1 ≤ (i 1).val ∧ (i 1).val < win0_11.index ⟨40 * ((i 0).val / 512) + 39, hlt⟩ 1 * 1 + 1
    rw [e1]; omega

/-- So the result array ends holding the scores. -/
theorem final (c : Dev nD) : (dats m 0 c).arrAt 11 cfg0.N = scores m c :=
  (dats m 0 c).arrAt_eq_of_cover 11 (scores m c) (flushed_eq m c) covered

/-! ## The weights as the host operations before the region leave them

  Before the region the host casts the weight matrices to a narrower float format, which is the identity on the
  extended reals, cuts the first hidden layer's matrix into its two halves of columns, and lays each bias vector out
  as a one-row array. -/

theorem ftw_eq (c : Dev nD) : ftw m c = (m ((c : Thread nD τ).loc main_arg2)) := by
  show (V m c main_v0 : S256x40960.Idx → EReal) = _
  dsimp only [V, hostOps0]; after_results <;> rfl

theorem w2_eq (c : Dev nD) : w2 m c = (m ((c : Thread nD τ).loc main_arg6)) := by
  show (V m c main_v7 : S32x32.Idx → EReal) = _
  dsimp only [V, hostOps0]; after_results <;> rfl

theorem w3_eq (c : Dev nD) : w3 m c = (m ((c : Thread nD τ).loc main_arg8)) := by
  show (V m c main_v9 : S1x32.Idx → EReal) = _
  dsimp only [V, hostOps0]; after_results <;> rfl

theorem half : 256 + 256 = 512 := rfl

/-- The weights read against the first side are the first 256 columns of the first hidden layer's matrix … -/
theorem w1a_eq (c : Dev nD) : w1a m c = leftHalf half (m ((c : Thread nD τ).loc main_arg4)) := by
  have e : (w1a m c : S32x256.Idx → EReal)
      = truncf (F := Ideal) .bf16 (extractStridedSlice S32x256 ![0, 0] ((m ((c : Thread nD τ).loc main_arg4)) : FVec Ideal S32x512 .f32) slices_S32x512_S32x256_0_0) bitsLt_bf16_f32 := by
    show (V m c main_v3 : S32x256.Idx → EReal) = _
    dsimp only [V, hostOps0]; after_results <;> rfl
  rw [e]
  funext i
  obtain ⟨a, q, rfl⟩ : ∃ (a : Fin 32) (q : Fin 256), i = ix2 a q := ⟨i 0, i 1, eq_ix2 i⟩
  rw [truncf_apply, leftHalf_apply]
  exact slice2_axis1_apply 0 _ _ a q _ (by show q.val = 0 + q.val; omega)

/-- … and those read against the second side its last 256 columns. -/
theorem w1b_eq (c : Dev nD) : w1b m c = rightHalf half (m ((c : Thread nD τ).loc main_arg4)) := by
  have e : (w1b m c : S32x256.Idx → EReal)
      = truncf (F := Ideal) .bf16 (extractStridedSlice S32x256 ![0, 256] ((m ((c : Thread nD τ).loc main_arg4)) : FVec Ideal S32x512 .f32) slices_S32x512_S32x256_0_256) bitsLt_bf16_f32 := by
    show (V m c main_v5 : S32x256.Idx → EReal) = _
    dsimp only [V, hostOps0]; after_results <;> rfl
  rw [e]
  funext i
  obtain ⟨a, q, rfl⟩ : ∃ (a : Fin 32) (q : Fin 256), i = ix2 a q := ⟨i 0, i 1, eq_ix2 i⟩
  rw [truncf_apply, rightHalf_apply]
  exact slice2_axis1_apply 256 _ _ a q _ rfl

/-- The feature bias laid out as one row reads the bias vector. -/
theorem ftb_apply (c : Dev nD) (q : Fin 256) : ftb m c (ix2 (0 : Fin 1) q) = (m ((c : Thread nD τ).loc main_arg3)) (ix1 q) := by
  have e : (ftb m c : S1x256.Idx → EReal) = shapeCast S1x256 ((m ((c : Thread nD τ).loc main_arg3)) : S256.Idx → EReal) shapeCasts_S256_S1x256 := by
    show (V m c main_v1 : S1x256.Idx → EReal) = _
    dsimp only [V, hostOps0]; after_results <;> rfl
  rw [e]
  refine shapeCast_apply (s := S256) (t := S1x256) _ _ _ (ix1 q) ?_
  rw [Shape.rowMajor_val_one, Shape.rowMajor_val_two]
  show q.val = (0 : ℕ) * 256 + q.val
  omega

/-- The first hidden layer's bias, likewise. -/
theorem b1_apply (c : Dev nD) (q : Fin 32) : b1 m c (ix2 (0 : Fin 1) q) = (m ((c : Thread nD τ).loc main_arg5)) (ix1 q) := by
  have e : (b1 m c : S1x32.Idx → EReal) = shapeCast S1x32 ((m ((c : Thread nD τ).loc main_arg5)) : S32.Idx → EReal) shapeCasts_S32_S1x32 := by
    show (V m c main_v6 : S1x32.Idx → EReal) = _
    dsimp only [V, hostOps0]; after_results <;> rfl
  rw [e]
  refine shapeCast_apply (s := S32) (t := S1x32) _ _ _ (ix1 q) ?_
  rw [Shape.rowMajor_val_one, Shape.rowMajor_val_two]
  show q.val = (0 : ℕ) * 32 + q.val
  omega

/-- The second hidden layer's bias, likewise. -/
theorem b2_apply (c : Dev nD) (q : Fin 32) : b2 m c (ix2 (0 : Fin 1) q) = (m ((c : Thread nD τ).loc main_arg7)) (ix1 q) := by
  have e : (b2 m c : S1x32.Idx → EReal) = shapeCast S1x32 ((m ((c : Thread nD τ).loc main_arg7)) : S32.Idx → EReal) shapeCasts_S32_S1x32 := by
    show (V m c main_v8 : S1x32.Idx → EReal) = _
    dsimp only [V, hostOps0]; after_results <;> rfl
  rw [e]
  refine shapeCast_apply (s := S32) (t := S1x32) _ _ _ (ix1 q) ?_
  rw [Shape.rowMajor_val_one, Shape.rowMajor_val_two]
  show q.val = (0 : ℕ) * 32 + q.val
  omega

/-- The last layer's bias, likewise. -/
theorem b3_apply (c : Dev nD) (q : Fin 1) : b3 m c (ix2 (0 : Fin 1) q) = (m ((c : Thread nD τ).loc main_arg9)) (ix1 q) := by
  have e : (b3 m c : S1x1.Idx → EReal) = shapeCast S1x1 ((m ((c : Thread nD τ).loc main_arg9)) : S1.Idx → EReal) shapeCasts_S1_S1x1 := by
    show (V m c main_v10 : S1x1.Idx → EReal) = _
    dsimp only [V, hostOps0]; after_results <;> rfl
  rw [e]
  refine shapeCast_apply (s := S1) (t := S1x1) _ _ _ (ix1 q) ?_
  rw [Shape.rowMajor_val_one, Shape.rowMajor_val_two]
  show q.val = (0 : ℕ) * 1 + q.val
  omega

/-- The scores in terms of the argument arrays: the network `score` of the ten arguments. -/
theorem scores_apply (c : Dev nD) (i : S4096x1.Idx) : scores m c i =
    score (B := 4096) (K := 40960) (H1 := 256) (HH := 512) (H2 := 32) (H3 := 32) half (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowIx i) := by
  unfold scores score
  rw [show white m c = _ from V_main_arg0 m c, show black m c = _ from V_main_arg1 m c, ftw_eq, w1a_eq, w1b_eq, w2_eq, w3_eq]
  rw [funext (ftb_apply m c), funext (b1_apply m c), funext (b2_apply m c), b3_apply]

/-! ## The run, read -/

/-- What the result array ends holding, as a function of the ten arguments: at position `r` their `score`. -/
def result (c : Dev nD) : Buf (Elt Ideal) ((c : Thread nD τ).loc main_v11) := fun i : S4096x1.Idx =>
  score (B := 4096) (K := 40960) (H1 := 256) (HH := 512) (H2 := 32) (H3 := 32) half (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowIx i)

theorem final_result (c : Dev nD) : (dats m 0 c).arrAt 11 cfg0.N = result m c :=
  (final m c).trans (funext fun i => scores_apply m c i)

/-- Every run of the kernel program ends with the result array at the scores and the arguments as they were. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_result m c), (h c).2⟩) (Value.run_blocks m ρ)

end Cert.KernelIdeal.NetValue

end
-- ==== Proof.RefValue.lean ====
/-
  The reference program's result, read entry by entry: it is the network `score` of the ten arguments.

  The reference multiplies each side's features with the transposed feature-transform matrix, adds the bias laid over
  all rows and clamps; joins the two clamped matrices side by side into one of twice the width and multiplies it with
  the transposed first hidden layer's matrix, so that the sum over the joined columns is the sum over the first side's
  columns against the matrix's first half plus the sum over the second side's against its second half
  (`sum_two_halves`); and runs the two remaining layers. Every product with a transposed matrix is a product with
  the matrix's rows; every clamp is the minimum of one with the maximum of zero and the value.
-/
import proofs.«129051_j46497315946985_1_alg».proof.Proof.Gen.ReferenceIdeal.Read
import proofs.«129051_j46497315946985_1_alg».proof.Proof.NetSpec
import Idealize.ShloMosaic.Lib.Pipeline.Value
import Idealize.ShloMosaic.Lib.ValueIdx

noncomputable section

namespace Cert.ReferenceIdeal.NetValue

open Cert.ReferenceIdeal Cert.ReferenceIdeal.Gen Cert.ReferenceIdeal.Read Idealize.ShloMosaic Idealize.ShloMosaic.ValueIdx
open Cert.DenseLayer (Mat)
open Cert.DenseRows (prodRowT rowIx leftHalf rightHalf sum_two_halves)
open Cert.Nnue

variable (x0 x1 : (⟨S4096x40960, .f32⟩ : BufTy).Contents (Elt Ideal)) (x2 : (⟨S256x40960, .f32⟩ : BufTy).Contents (Elt Ideal))
  (x3 : (⟨S256, .f32⟩ : BufTy).Contents (Elt Ideal)) (x4 : (⟨S32x512, .f32⟩ : BufTy).Contents (Elt Ideal))
  (x5 : (⟨S32, .f32⟩ : BufTy).Contents (Elt Ideal)) (x6 : (⟨S32x32, .f32⟩ : BufTy).Contents (Elt Ideal))
  (x7 : (⟨S32, .f32⟩ : BufTy).Contents (Elt Ideal)) (x8 : (⟨S1x32, .f32⟩ : BufTy).Contents (Elt Ideal))
  (x9 : (⟨S1, .f32⟩ : BufTy).Contents (Elt Ideal))

theorem half : 256 + 256 = 512 := rfl

/-- The first side's clamped feature row: the product with the rows of the feature-transform matrix plus the bias, clamped. -/
theorem feat_white (r : Fin 4096) (q : Fin 256) :
    val_main_v5 (F := Ideal) x0 x2 x3 (ix2 r q) = clip01 (prodRowT (a := 4096) (K := 40960) (N := 256) x0 x2 r q + x3 (ix1 q)) := by
  rw [val_main_v5_apply, val_main_call0_v4_apply, val_main_call0_v3_apply, val_main_cst_0_apply, val_main_call0_v2_apply,
    val_main_call0_v1_apply, val_main_call0_v0_apply, val_main_cst_apply, val_main_v4_apply, val_main_v1_apply, val_main_v3_apply, val_main_v2_apply]
  simp only [val_main_v0_apply]
  have e1 : ∀ k, lidx_main_v1 (ix2 r q) k = ix2 r k := fun k => funext fun a => Fin.ext (by
    match a with
    | ⟨0, _⟩ => rfl
    | ⟨1, _⟩ => rfl)
  have e2 : ∀ k, idx_main_v0 (ridx_main_v1 (ix2 r q) k) = ix2 q k := fun k => funext fun a => Fin.ext (by
    match a with
    | ⟨0, _⟩ => rfl
    | ⟨1, _⟩ => rfl)
  have e3 : idx_main_v2 (idx_main_v3 (ix2 r q)) = ix1 q := funext fun a => Fin.ext (by
    match a with
    | ⟨0, _⟩ => rfl)
  simp only [e1, e2, e3]
  rfl

/-- The second side's, the same. -/
theorem feat_black (r : Fin 4096) (q : Fin 256) :
    val_main_v11 (F := Ideal) x1 x2 x3 (ix2 r q) = clip01 (prodRowT (a := 4096) (K := 40960) (N := 256) x1 x2 r q + x3 (ix1 q)) := by
  rw [val_main_v11_apply, val_main_call1_v4_apply, val_main_call1_v3_apply, val_main_cst_2_apply, val_main_call1_v2_apply,
    val_main_call1_v1_apply, val_main_call1_v0_apply, val_main_cst_1_apply, val_main_v10_apply, val_main_v7_apply, val_main_v9_apply, val_main_v8_apply]
  simp only [val_main_v6_apply]
  have e1 : ∀ k, lidx_main_v7 (ix2 r q) k = ix2 r k := fun k => funext fun a => Fin.ext (by
    match a with
    | ⟨0, _⟩ => rfl
    | ⟨1, _⟩ => rfl)
  have e2 : ∀ k, idx_main_v6 (ridx_main_v7 (ix2 r q) k) = ix2 q k := fun k => funext fun a => Fin.ext (by
    match a with
    | ⟨0, _⟩ => rfl
    | ⟨1, _⟩ => rfl)
  have e3 : idx_main_v8 (idx_main_v9 (ix2 r q)) = ix1 q := funext fun a => Fin.ext (by
    match a with
    | ⟨0, _⟩ => rfl)
  simp only [e1, e2, e3]
  rfl

/-- The joined matrix on its first 256 columns is the first side's … -/
theorem joined_left (r : Fin 4096) (i : Fin 32) (q : Fin 256) :
    val_main_v12 (F := Ideal) x0 x1 x2 x3 (lidx_main_v14 (ix2 r i) ⟨q.val, by have := q.isLt; omega⟩)
      = val_main_v5 (F := Ideal) x0 x2 x3 (ix2 r q) := by
  unfold val_main_v12
  exact concatenate_pair_apply_left (t := S4096x512) (s₁ := S4096x256) (s₂ := S4096x256) 1 (val_main_v5 (F := Ideal) x0 x2 x3)
    (val_main_v11 (F := Ideal) x1 x2 x3) concatenates_S4096x256_S4096x256_S4096x512_d1 (lidx_main_v14 (ix2 r i) ⟨q.val, by have := q.isLt; omega⟩) rfl (ix2 r q) (fun b => by
    match b with
    | ⟨0, _⟩ => rfl
    | ⟨1, _⟩ => rfl)

/-- … and on its last 256 columns the second side's. -/
theorem joined_right (r : Fin 4096) (i : Fin 32) (q : Fin 256) :
    val_main_v12 (F := Ideal) x0 x1 x2 x3 (lidx_main_v14 (ix2 r i) ⟨256 + q.val, by have := q.isLt; omega⟩)
      = val_main_v11 (F := Ideal) x1 x2 x3 (ix2 r q) := by
  unfold val_main_v12
  exact concatenate_pair_apply_right (t := S4096x512) (s₁ := S4096x256) (s₂ := S4096x256) 1 (val_main_v5 (F := Ideal) x0 x2 x3)
    (val_main_v11 (F := Ideal) x1 x2 x3) concatenates_S4096x256_S4096x256_S4096x512_d1 (lidx_main_v14 (ix2 r i) ⟨256 + q.val, by have := q.isLt; omega⟩) rfl rfl (ix2 r q) (fun b hb => by
    match b with
    | ⟨0, _⟩ => rfl
    | ⟨1, _⟩ => exact absurd rfl hb) (by show q.val + 256 = 256 + q.val; omega)

/-- The first hidden layer at `(r, i)`. -/
theorem hidden_first (r : Fin 4096) (i : Fin 32) :
    val_main_v18 (F := Ideal) x0 x1 x2 x3 x4 x5 (ix2 r i)
      = hidden1 (H1 := 256) (H2 := 32) (fun q => val_main_v5 (F := Ideal) x0 x2 x3 (ix2 r q))
          (fun q => val_main_v11 (F := Ideal) x1 x2 x3 (ix2 r q)) (leftHalf half x4) (rightHalf half x4) (fun j => x5 (ix1 j)) i := by
  rw [val_main_v18_apply, val_main_call2_v4_apply, val_main_call2_v3_apply, val_main_cst_4_apply, val_main_call2_v2_apply,
    val_main_call2_v1_apply, val_main_call2_v0_apply, val_main_cst_3_apply, val_main_v17_apply, val_main_v14_apply,
    val_main_v16_apply, val_main_v15_apply, sum_two_halves half]
  simp only [val_main_v13_apply, joined_left, joined_right]
  have e1 : ∀ q : Fin 256, idx_main_v13 (ridx_main_v14 (ix2 r i) ⟨q.val, by have := q.isLt; omega⟩) = ix2 i ⟨q.val, by have := q.isLt; omega⟩ :=
    fun q => funext fun a => Fin.ext (by
      match a with
      | ⟨0, _⟩ => rfl
      | ⟨1, _⟩ => rfl)
  have e2 : ∀ q : Fin 256, idx_main_v13 (ridx_main_v14 (ix2 r i) ⟨256 + q.val, by have := q.isLt; omega⟩) = ix2 i ⟨256 + q.val, by have := q.isLt; omega⟩ :=
    fun q => funext fun a => Fin.ext (by
      match a with
      | ⟨0, _⟩ => rfl
      | ⟨1, _⟩ => rfl)
  have e3 : idx_main_v15 (idx_main_v16 (ix2 r i)) = ix1 i := funext fun a => Fin.ext (by
    match a with
    | ⟨0, _⟩ => rfl)
  simp only [e1, e2, e3]
  rfl

/-- The second hidden layer at `(r, j)`. -/
theorem hidden_second (r : Fin 4096) (j : Fin 32) :
    val_main_v24 (F := Ideal) x0 x1 x2 x3 x4 x5 x6 x7 (ix2 r j)
      = clipRow (n := 32) (k := 32) (fun i => val_main_v18 (F := Ideal) x0 x1 x2 x3 x4 x5 (ix2 r i)) x6 (fun j => x7 (ix1 j)) j := by
  rw [val_main_v24_apply, val_main_call3_v4_apply, val_main_call3_v3_apply, val_main_cst_6_apply, val_main_call3_v2_apply,
    val_main_call3_v1_apply, val_main_call3_v0_apply, val_main_cst_5_apply, val_main_v23_apply, val_main_v20_apply,
    val_main_v22_apply, val_main_v21_apply]
  simp only [val_main_v19_apply]
  have e1 : ∀ k, lidx_main_v20 (ix2 r j) k = ix2 r k := fun k => funext fun a => Fin.ext (by
    match a with
    | ⟨0, _⟩ => rfl
    | ⟨1, _⟩ => rfl)
  have e2 : ∀ k, idx_main_v19 (ridx_main_v20 (ix2 r j) k) = ix2 j k := fun k => funext fun a => Fin.ext (by
    match a with
    | ⟨0, _⟩ => rfl
    | ⟨1, _⟩ => rfl)
  have e3 : idx_main_v21 (idx_main_v22 (ix2 r j)) = ix1 j := funext fun a => Fin.ext (by
    match a with
    | ⟨0, _⟩ => rfl)
  simp only [e1, e2, e3]
  rfl

/-- The result at position `r`. -/
theorem result_apply (r : Fin 4096) :
    val_main_v29 (F := Ideal) x0 x1 x2 x3 x4 x5 x6 x7 x8 x9 (ix2 r (0 : Fin 1))
      = ∑ j : Fin 32, val_main_v24 (F := Ideal) x0 x1 x2 x3 x4 x5 x6 x7 (ix2 r j) * x8 (ix2 (0 : Fin 1) j) + x9 (ix1 (0 : Fin 1)) := by
  rw [val_main_v29_apply, val_main_v26_apply, val_main_v28_apply, val_main_v27_apply]
  simp only [val_main_v25_apply]
  have e1 : ∀ k, lidx_main_v26 (ix2 r (0 : Fin 1)) k = ix2 r k := fun k => funext fun a => Fin.ext (by
    match a with
    | ⟨0, _⟩ => rfl
    | ⟨1, _⟩ => rfl)
  have e2 : ∀ k, idx_main_v25 (ridx_main_v26 (ix2 r (0 : Fin 1)) k) = ix2 (0 : Fin 1) k := fun k => funext fun a => Fin.ext (by
    match a with
    | ⟨0, _⟩ => rfl
    | ⟨1, _⟩ => rfl)
  have e3 : idx_main_v27 (idx_main_v28 (ix2 r (0 : Fin 1))) = ix1 (0 : Fin 1) := funext fun a => Fin.ext (by
    match a with
    | ⟨0, _⟩ => rfl)
  simp only [e1, e2, e3]
  rfl

/-- The reference's result array is the network `score` of the arguments, position by position. -/
theorem result_eq :
    val_main_v29 (F := Ideal) x0 x1 x2 x3 x4 x5 x6 x7 x8 x9
      = fun i : S4096x1.Idx => score (B := 4096) (K := 40960) (H1 := 256) (HH := 512) (H2 := 32) (H3 := 32) half
          x0 x1 x2 x3 x4 x5 x6 x7 x8 x9 (rowIx i) := by
  funext i
  obtain ⟨r, u, rfl⟩ : ∃ (r : Fin 4096) (u : Fin 1), i = ix2 r u := ⟨i 0, i 1, eq_ix2 i⟩
  obtain rfl : u = 0 := Subsingleton.elim _ _
  rw [result_apply]
  simp only [hidden_second, hidden_first, feat_white, feat_black]
  rfl

end Cert.ReferenceIdeal.NetValue

end
-- ==== Proof.lean ====
/-
  The certificate of a position-scoring kernel against its plain reference, over the extended reals.

  Both programs score 4096 positions. A position has two sparse feature rows of 40960 columns, one per side; each
  is multiplied with the rows of a `[256, 40960]` feature-transform matrix, a bias is added and the result is clamped
  into `[0, 1]`; the two clamped rows feed a small network of three dense layers (512 → 32 → 32 → 1), the first two
  clamped the same way, whose first layer reads the first side's row against the first 256 columns of its weight
  matrix and the second side's against the last 256.

  The kernel sweeps the feature columns 1024 at a time, keeping one accumulator per side for a tile of 512 positions,
  and computes the network at the sweep's last step; the reference takes each product whole, joins the two clamped
  matrices side by side and multiplies once with the first layer's whole matrix. On the extended reals the two are
  the same function of the arguments, `Cert.Nnue.score`:

  * a sum over 40960 columns is the sum over the 40 blocks of the sums inside each block, and a sum over 512 joined
    columns the sum over the first 256 plus the sum over the last 256 — re-groupings of a sum in a commutative monoid,
    which hold with infinities present, so the precondition is never opened;
  * a matrix product into a zero accumulator, on either side, is the plain sum of products, and a change of float
    format is the identity;
  * both programs clamp by the minimum of one with the maximum of zero and the value.

  The kernel's side is Proof/KernelValue.lean (over Proof/Pieces.lean and Proof/Payloads.lean), the reference's
  Proof/RefValue.lean, the shared function Proof/NetSpec.lean. The frames of the two kernel programs are the
  generated ones; the reference's frame is its generated run with the result dropped. The idealization rewrote
  nothing, so `preserves` is trivial.
-/
import proofs.«129051_j46497315946985_1_alg».proof.Defs
import proofs.«129051_j46497315946985_1_alg».proof.Proof.Gen.Kernel
import proofs.«129051_j46497315946985_1_alg».proof.Proof.Gen.Kernel.Skeleton
import proofs.«129051_j46497315946985_1_alg».proof.Proof.Gen.Kernel.Launch
import proofs.«129051_j46497315946985_1_alg».proof.Proof.Gen.Kernel.Points
import proofs.«129051_j46497315946985_1_alg».proof.Proof.Gen.Kernel.Frame
import proofs.«129051_j46497315946985_1_alg».proof.Proof.Gen.KernelIdeal
import proofs.«129051_j46497315946985_1_alg».proof.Proof.Gen.KernelIdeal.Skeleton
import proofs.«129051_j46497315946985_1_alg».proof.Proof.Gen.KernelIdeal.Launch
import proofs.«129051_j46497315946985_1_alg».proof.Proof.Gen.KernelIdeal.Points
import proofs.«129051_j46497315946985_1_alg».proof.Proof.Gen.KernelIdeal.Frame
import proofs.«129051_j46497315946985_1_alg».proof.Proof.Gen.ReferenceIdeal
import proofs.«129051_j46497315946985_1_alg».proof.Proof.Gen.KernelIdeal.Value
import proofs.«129051_j46497315946985_1_alg».proof.Proof.Gen.ReferenceIdeal.Run
import proofs.«129051_j46497315946985_1_alg».proof.Proof.Gen.ReferenceIdeal.Read
import proofs.«129051_j46497315946985_1_alg».proof.Proof.Gen.Pre_finite_inputs
import proofs.«129051_j46497315946985_1_alg».proof.Proof.KernelValue
import proofs.«129051_j46497315946985_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the result array at the arguments'
    `score`, position by position. -/
theorem algebraic : Cert.algebraic_KernelIdeal_ReferenceIdeal := by
  intro m ρ m' ρ' _ hagree
  refine ⟨fun c => Cert.KernelIdeal.NetValue.result m c, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [a0, a1, a2, a3, a4, a5, a6, a7, a8, a9]
  exact (Cert.ReferenceIdeal.Read.val_main_v29_eq _ _ _ _ _ _ _ _ _ _).trans
    (Cert.ReferenceIdeal.NetValue.result_eq _ _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
